-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S256x2048 .f32 .bf16
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x1024 : Shape := ⟨2, ![2048, 1024]⟩
abbrev S2048 : Shape := ⟨1, ![2048]⟩
abbrev S1024 : Shape := ⟨1, ![1024]⟩
abbrev S2x8192x1024 : Shape := ⟨3, ![2, 8192, 1024]⟩
abbrev S1x8192x2048 : Shape := ⟨3, ![1, 8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S1x8192x2048 : S_.BroadcastsInDim S1x8192x2048 (![] : Fin 0 → Fin S1x8192x2048.rank)
  reducesTo_S1x8192x2048_S_d0_1_2 : S1x8192x2048.ReducesTo [0, 1, 2] S_

variable [Facts]

def fn_part1 {F : FTy → Type} [FloatOps F] (main_arg4 : FVec F S2x8192x1024 .f32) (main_arg5 : FVec F S1x8192x2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2x8192x1024 .f32 := Host.absf main_arg4
  let main_cst_6 : FVec F S_ .f32 := constant S_ .f32 0x7F800000#32
  let main_v20 : FVec F S2x8192x1024 .f32 := broadcastInDim S2x8192x1024 ![] bcast_S_S2x8192x1024 main_cst_6
  let main_v21 : IVec S2x8192x1024 1 := cmpf .olt main_v19 main_v20
  let main_c_7 : IVec S_ 1 := constantI S_ 1 1#1
  let main_v22 : IVec S_ 1 := (fun x v => Host.reduce IntOp.andi x v reducesTo_S2x8192x1024_S_d0_1_2 h_S_) main_v21 main_c_7
  let main_v23 : IVec S_ 1 := andi main_v18 main_v22
  let main_v24 : FVec F S1x8192x2048 .f32 := Host.absf main_arg5
  let main_cst_8 : FVec F S_ .f32 := constant S_ .f32 0x7F800000#32
  let main_v25 : FVec F S1x8192x2048 .f32 := broadcastInDim S1x8192x2048 ![] bcast_S_S1x8192x2048 main_cst_8
  let main_v26 : IVec S1x8192x2048 1 := cmpf .olt main_v24 main_v25
  let main_c_9 : IVec S_ 1 := constantI S_ 1 1#1
  let main_v27 : IVec S_ 1 := (fun x v => Host.reduce IntOp.andi x v reducesTo_S1x8192x2048_S_d0_1_2 h_S_) main_v26 main_c_9
  let main_v28 : IVec S_ 1 := andi main_v23 main_v27
  main_v28

def fn {F : FTy → Type} [FloatOps F] (main_arg0 : FVec F S8192x2048 .f32) (main_arg1 : FVec F S2048x1024 .f32) (main_arg2 : FVec F S2048 .f32) (main_arg3 : FVec F S1024 .f32) (main_arg4 : FVec F S2x8192x1024 .f32) (main_arg5 : FVec F S1x8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8192x2048 : Shape := ⟨2, ![8192, 2048]⟩
abbrev S2048x1024 : Shape := ⟨2, ![2048, 1024]⟩
abbrev S2048 : Shape := ⟨1, ![2048]⟩
abbrev S1024 : Shape := ⟨1, ![1024]⟩
abbrev S2x8192x1024 : Shape := ⟨3, ![2, 8192, 1024]⟩
abbrev S1x8192x2048 : Shape := ⟨3, ![1, 8192, 2048]⟩
abbrev S1024x2048 : Shape := ⟨2, ![1024, 2048]⟩
abbrev S1x2048 : Shape := ⟨2, ![1, 2048]⟩
abbrev S1x1024 : Shape := ⟨2, ![1, 1024]⟩
abbrev S1x8192x1024 : Shape := ⟨3, ![1, 8192, 1024]⟩
abbrev S8192x1024 : Shape := ⟨2, ![8192, 1024]⟩
abbrev S1x1 : Shape := ⟨2, ![1, 1]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S2048x256 : Shape := ⟨2, ![2048, 256]⟩
abbrev S_ : Shape := ⟨0, ![]⟩

abbrev nBuf : Space → Nat
  | .hbm => 29
  | .vmem => 32
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S2048, .f32⟩
  | .hbm, ⟨3, _⟩ => ⟨S1024, .f32⟩
  | .hbm, ⟨4, _⟩ => ⟨S2x8192x1024, .f32⟩
  | .hbm, ⟨5, _⟩ => ⟨S1x8192x2048, .f32⟩
  | .hbm, ⟨6, _⟩ => ⟨S2048x1024, .bf16⟩
  | .hbm, ⟨7, _⟩ => ⟨S1024x2048, .f32⟩
  | .hbm, ⟨8, _⟩ => ⟨S1024x2048, .bf16⟩
  | .hbm, ⟨9, _⟩ => ⟨S1x2048, .f32⟩
  | .hbm, ⟨10, _⟩ => ⟨S1x1024, .f32⟩
  | .hbm, ⟨11, _⟩ => ⟨S1x8192x1024, .f32⟩
  | .hbm, ⟨12, _⟩ => ⟨S8192x1024, .f32⟩
  | .hbm, ⟨13, _⟩ => ⟨S1x8192x1024, .f32⟩
  | .hbm, ⟨14, _⟩ => ⟨S8192x1024, .f32⟩
  | .hbm, ⟨15, _⟩ => ⟨S8192x2048, .f32⟩
  | .hbm, ⟨16, _⟩ => ⟨S8192x1024, .f32⟩
  | .hbm, ⟨17, _⟩ => ⟨S8192x1024, .bf16⟩
  | .hbm, ⟨18, _⟩ => ⟨S8192x2048, .bf16⟩
  | .hbm, ⟨19, _⟩ => ⟨S8192x1024, .bf16⟩
  | .hbm, ⟨20, _⟩ => ⟨S1x2048, .f32⟩
  | .hbm, ⟨21, _⟩ => ⟨S1x1024, .f32⟩
  | .hbm, ⟨22, _⟩ => ⟨S1x1, .f32⟩
  | .hbm, ⟨23, _⟩ => ⟨S2048x1024, .f32⟩
  | .hbm, ⟨24, _⟩ => ⟨S2048, .f32⟩
  | .hbm, ⟨25, _⟩ => ⟨S1024, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S1024x2048, .bf16⟩
  | .local _ .vmem, ⟨4, _⟩ => ⟨S1x2048, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S256x1024, .bf16⟩
  | .local _ .vmem, ⟨19, _⟩ => ⟨S256x1024, .bf16⟩
  | .local _ .vmem, ⟨20, _⟩ => ⟨S1x2048, .f32⟩
  | .local _ .vmem, ⟨21, _⟩ => ⟨S1x1024, .f32⟩
  | .local _ .vmem, ⟨22, _⟩ => ⟨S1x1, .f32⟩
  | .local _ .vmem, ⟨23, _⟩ => ⟨S256x2048, .f32⟩
  | .local _ .vmem, ⟨24, _⟩ => ⟨S256x2048, .f32⟩
  | .local _ .vmem, ⟨25, _⟩ => ⟨S256x1024, .bf16⟩
  | .local _ .vmem, ⟨26, _⟩ => ⟨S256x1024, .bf16⟩
  | .local _ .vmem, ⟨27, _⟩ => ⟨S256x2048, .bf16⟩
  | .local _ .vmem, ⟨28, _⟩ => ⟨S256x2048, .bf16⟩
  | .local _ .vmem, ⟨29, _⟩ => ⟨S256x1024, .bf16⟩
  | .local _ .vmem, ⟨30, _⟩ => ⟨S256x1024, .bf16⟩
  | .local _ .vmem, ⟨31, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bitsLt_bf16_f32 : FTy.bits .bf16 < FTy.bits .f32
  transposes_S2048x1024_S1024x2048_1_0 : S2048x1024.Transposes [1, 0] S1024x2048
  shapeCasts_S2048_S1x2048 : S2048.ShapeCasts S1x2048
  shapeCasts_S1024_S1x1024 : S1024.ShapeCasts S1x1024
  slices_S2x8192x1024_S1x8192x1024_0_0_0 : S2x8192x1024.Slices ![0, 0, 0] S1x8192x1024
  shapeCasts_S1x8192x1024_S8192x1024 : S1x8192x1024.ShapeCasts S8192x1024
  slices_S2x8192x1024_S1x8192x1024_1_0_0 : S2x8192x1024.Slices ![1, 0, 0] S1x8192x1024
  shapeCasts_S1x8192x2048_S8192x2048 : S1x8192x2048.ShapeCasts S8192x2048
  inb_S1x2048_S1x2048_0_0 : ∀ a, (![0, 0] : Fin 2 → Nat) a + S1x2048.size a ≤ S1x2048.size a
  h_S1x2048 : 0 < S1x2048.numel
  inb_S1x1024_S1x1024_0_0 : ∀ a, (![0, 0] : Fin 2 → Nat) a + S1x1024.size a ≤ S1x1024.size a
  h_S1x1024 : 0 < S1x1024.numel
  inb_S1x1_S1x1_0_0 : ∀ a, (![0, 0] : Fin 2 → Nat) a + S1x1.size a ≤ S1x1.size a
  h_S1x1 : 0 < S1x1.numel
  inb_S256x2048_S256x2048_0_0 : ∀ a, (![0, 0] : Fin 2 → Nat) a + S256x2048.size a ≤ S256x2048.size a
  h_S256x2048 : 0 < S256x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1x2048_S1x2048 : S1x2048.ShapeCasts S1x2048
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  broadcasts_S1x2048_S256x2048 : S1x2048.Broadcasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  shapeCasts_S256x1024_S256x1024 : S256x1024.ShapeCasts S256x1024
  natLt_1_32 : 1 < 32
  packedbf16_S256x1024_S256x1024_0_0 : (Rect.unit (s := S256x1024) ![0, 0] S256x1024.size inb_S256x1024_S256x1024_0_0).PackedRows (EltTy.packing .bf16)
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  reduces_S256x2048_S2048 : S256x2048.Reduces [0] S2048
  reduces_S256x1024_S1024 : S256x1024.Reduces [0] S1024
  transposes_S256x2048_p1_0_S2048x256 : S256x2048.Transposes [1, 0] S2048x256
  shapeCasts_S1x2048_S2048 : S1x2048.ShapeCasts S2048
  shapeCasts_S1x1024_S1024 : S1x1024.ShapeCasts S1024
  shapeCasts_S1x1_S_ : S1x1.ShapeCasts S_
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .f32 = 32 ∨ (Rect.block (s := S8192x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .bf16 = 32 ∨ (Rect.block (s := S8192x1024) S256x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S8192x2048.size a
  hwx0_10 : ∀ i : grid0.Coords, EltTy.bits .bf16 = 32 ∨ (Rect.block (s := S8192x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .bf16 = 32 ∨ (Rect.block (s := S8192x1024) S256x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x1024.size a
  hwx1_1 : ∀ i : grid1.Coords, EltTy.bits .bf16 = 32 ∨ (Rect.block (s := S8192x1024) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x2048.size a
  hwx1_2 : ∀ i : grid1.Coords, EltTy.bits .bf16 = 32 ∨ (Rect.block (s := S8192x2048) S256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x1024.size a
  hwx1_3 : ∀ i : grid1.Coords, EltTy.bits .bf16 = 32 ∨ (Rect.block (s := S8192x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .f32 = 32 ∨ (Rect.block (s := S2048x1024) S2048x1024.size (cc1_transform_4 i) (hinb1_4 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_2) S256x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_3) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_4) S1x2048.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10_5) S1x1024.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10_6) S1x1.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_3) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2048x1024.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x1024 : Shape := ⟨2, ![2048, 1024]⟩
abbrev S2048 : Shape := ⟨1, ![2048]⟩
abbrev S1024 : Shape := ⟨1, ![1024]⟩
abbrev S2x8192x1024 : Shape := ⟨3, ![2, 8192, 1024]⟩
abbrev S1x8192x2048 : Shape := ⟨3, ![1, 8192, 2048]⟩
abbrev S8192x1024 : Shape := ⟨2, ![8192, 1024]⟩
abbrev S1x1024 : Shape := ⟨2, ![1, 1024]⟩
abbrev S_ : Shape := ⟨0, ![]⟩
abbrev S1024x2048 : Shape := ⟨2, ![1024, 2048]⟩
abbrev S1x2048 : Shape := ⟨2, ![1, 2048]⟩
abbrev S8192 : Shape := ⟨1, ![8192]⟩
abbrev S1x8192x1024 : Shape := ⟨3, ![1, 8192, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S2048, .f32⟩
  | .hbm, ⟨3, _⟩ => ⟨S1024, .f32⟩
  | .hbm, ⟨4, _⟩ => ⟨S2x8192x1024, .f32⟩
  | .hbm, ⟨5, _⟩ => ⟨S1x8192x2048, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S1024x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x8192x1024, .f32⟩
  | .hbm, ⟨43, _⟩ => ⟨S8192x1024, .f32⟩
  | .hbm, ⟨44, _⟩ => ⟨S8192x1024, .i1⟩
  | .hbm, ⟨45, _⟩ => ⟨S8192x1024, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S1024, .f32⟩
  | .hbm, ⟨50, _⟩ => ⟨S2048x1024, .f32⟩
  | .hbm, ⟨51, _⟩ => ⟨S1024x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .i1⟩
  | .hbm, ⟨66, _⟩ => ⟨S8192x2048, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S1x8192x1024, .f32⟩
  | .hbm, ⟨80, _⟩ => ⟨S8192x1024, .f32⟩
  | .hbm, ⟨81, _⟩ => ⟨S8192x1024, .i1⟩
  | .hbm, ⟨82, _⟩ => ⟨S8192x1024, .f32⟩
  | .hbm, ⟨83, _⟩ => ⟨S_, .f32⟩
  | .hbm, ⟨84, _⟩ => ⟨S2048, .f32⟩
  | .hbm, ⟨85, _⟩ => ⟨S_, .f32⟩
  | .hbm, ⟨86, _⟩ => ⟨S1024, .f32⟩
  | .hbm, ⟨87, _⟩ => ⟨S2048x1024, .f32⟩
  | .hbm, ⟨88, _⟩ => ⟨S2048, .f32⟩
  | .hbm, ⟨89, _⟩ => ⟨S1024, .f32⟩
  | .hbm, ⟨90, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  reducesTo_S8192x2048_S8192_d1 : S8192x2048.ReducesTo [1] S8192
  h_S_ : 0 < S_.numel
  bcast_S_S8192 : S_.BroadcastsInDim S8192 (![] : Fin 0 → Fin S8192.rank)
  reducesTo_S8192_S_d0 : S8192.ReducesTo [0] S_
  slices_S2x8192x1024_S1x8192x1024_0_0_0 : S2x8192x1024.Slices ![0, 0, 0] S1x8192x1024
  shapeCasts_S1x8192x1024_S8192x1024 : S1x8192x1024.ShapeCasts S8192x1024
  reducesTo_S8192x2048_S2048_d0 : S8192x2048.ReducesTo [0] S2048
  reducesTo_S8192x1024_S1024_d0 : S8192x1024.ReducesTo [0] S1024
  shapeCasts_S1x8192x2048_S8192x2048 : S1x8192x2048.ShapeCasts S8192x2048
  slices_S2x8192x1024_S1x8192x1024_1_0_0 : S2x8192x1024.Slices ![1, 0, 0] S1x8192x1024
  dot_S8192x2048_S2048x1024_S8192x1024_1_0_0_1_n_n_wf : DotDims.WF S8192x2048 S2048x1024 S8192x1024 [1] [0] [0] [1] [] []
  dot_S8192x1024_S1024x2048_S8192x2048_1_0_0_1_n_n_wf : DotDims.WF S8192x1024 S1024x2048 S8192x2048 [1] [0] [0] [1] [] []
  dot_S8192x2048_S8192x1024_S2048x1024_0_0_1_1_n_n_wf : DotDims.WF S8192x2048 S8192x1024 S2048x1024 [0] [0] [1] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S8192x1024_S2048x1024_0_0_1_1_n_n : DotDims S8192x2048 S8192x1024 S2048x1024 where
  lhsContracting := [0]
  rhsContracting := [0]
  lhsNonContracting := [1]
  rhsNonContracting := [1]
  lhsBatch := []
  rhsBatch := []
  wf := dot_S8192x2048_S8192x1024_S2048x1024_0_0_1_1_n_n_wf

class Facts : Prop extends Facts₀ where

variable [Facts]
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Spec.lean ====
/- The mathematics of one contrastive-divergence step of a restricted Boltzmann machine, over the extended reals.

   A row x of visible units gives hidden probabilities  σ(hb + x·W), their mean-field reconstruction
   σ(vb + hp·Wᵀ), a thresholded hidden sample (1 where the probability exceeds a uniform draw), a visible sample
   drawn from that hidden sample, and a second hidden sample drawn from the visible sample. Every one of these is
   a function of ONE row and of the weights, so a batch computes them row by row, whatever its tiling.
   The five results: the hidden probabilities; the mean absolute reconstruction error; and three gradients, each
   a difference of two sums over the batch. The tiled program forms the same numbers as sums of per-row
   differences, accumulated tile after tile; the last section states both arrangements. -/
import Idealize.ShloMosaic.PureOps.Ideal
import Idealize.ShloMosaic.Lib.ValueIdx
import proofs.«102447_j17806934409607_1_alg».proof.Proof.LibBlockSum

noncomputable section

namespace Cert.Rbm

open Idealize.ShloMosaic Idealize.ShloMosaic.ValueIdx
open scoped BigOperators

/-- 1 where a exceeds b, else 0. -/
def gt (a b : EReal) : EReal := (((Ideal.cmp .ogt a b).toNat : ℝ) : EReal)

/-- The inputs, as plain functions of coordinates: the batch v (8192 rows of 2048 visible units), the weights
    w (2048 × 1024) and their transpose wt, the two biases, and the three arrays of uniform draws. -/
structure Inp where
  v : Fin 8192 → Fin 2048 → EReal
  w : Fin 2048 → Fin 1024 → EReal
  wt : Fin 1024 → Fin 2048 → EReal
  vb : Fin 2048 → EReal
  hb : Fin 1024 → EReal
  u0 : Fin 8192 → Fin 1024 → EReal
  u1 : Fin 8192 → Fin 1024 → EReal
  uv : Fin 8192 → Fin 2048 → EReal

/-! ## One row -/

section row

variable (w : Fin 2048 → Fin 1024 → EReal) (wt : Fin 1024 → Fin 2048 → EReal) (vb : Fin 2048 → EReal) (hb : Fin 1024 → EReal)

/-- Hidden probability h of a visible row x: σ(hb h + Σₖ x k · w k h). -/
def hprob (x : Fin 2048 → EReal) (h : Fin 1024) : EReal := Ideal.logistic (hb h + ∑ k : Fin 2048, x k * w k h)

/-- Visible probability j of a hidden row y: σ(vb j + Σₕ y h · wt h j). -/
def vprob (y : Fin 1024 → EReal) (j : Fin 2048) : EReal := Ideal.logistic (vb j + ∑ h : Fin 1024, y h * wt h j)

/-- The first hidden sample: 1 where the hidden probability exceeds the draw. -/
def hdat (x : Fin 2048 → EReal) (a : Fin 1024 → EReal) (h : Fin 1024) : EReal := gt (hprob w hb x h) (a h)

/-- The visible sample drawn from the first hidden sample. -/
def vsam (x : Fin 2048 → EReal) (a : Fin 1024 → EReal) (d : Fin 2048 → EReal) (j : Fin 2048) : EReal :=
  gt (vprob wt vb (hdat w hb x a) j) (d j)

/-- The second hidden sample, drawn from the visible sample. -/
def hfin (x : Fin 2048 → EReal) (a : Fin 1024 → EReal) (d : Fin 2048 → EReal) (b : Fin 1024 → EReal) (h : Fin 1024) : EReal :=
  gt (hprob w hb (vsam w wt vb hb x a d) h) (b h)

/-- The absolute reconstruction error of unit j of a row: |x j − σ(vb j + hp · wt)|. -/
def aerr (x : Fin 2048 → EReal) (j : Fin 2048) : EReal :=
  max (x j - vprob wt vb (hprob w hb x) j) (-(x j - vprob wt vb (hprob w hb x) j))

end row

/-! ## The batch, row by row -/

namespace Inp

variable (I : Inp)

def Hp (b : Fin 8192) (h : Fin 1024) : EReal := hprob I.w I.hb (I.v b) h
def Hd (b : Fin 8192) (h : Fin 1024) : EReal := hdat I.w I.hb (I.v b) (I.u0 b) h
def Vk (b : Fin 8192) (j : Fin 2048) : EReal := vsam I.w I.wt I.vb I.hb (I.v b) (I.u0 b) (I.uv b) j
def Hf (b : Fin 8192) (h : Fin 1024) : EReal := hfin I.w I.wt I.vb I.hb (I.v b) (I.u0 b) (I.uv b) (I.u1 b) h
def Ae (b : Fin 8192) (j : Fin 2048) : EReal := aerr I.w I.wt I.vb I.hb (I.v b) j

end Inp

/-! ## Tiles of 256 rows, and the ordered accumulation over the 32 tiles -/

/-- Row p of tile t. -/
abbrev row (t : Fin 32) (p : Fin 256) : Fin 8192 := Cert.BlockSum.pos (B := 32) (R := 256) (N := 8192) rfl t p

/-- One tile's share of xᵀ·y at (j, h): Σ over the tile's rows of x b j · y b h. -/
def tileDot (x : Fin 8192 → Fin 2048 → EReal) (y : Fin 8192 → Fin 1024 → EReal) (t : Fin 32) (j : Fin 2048) (h : Fin 1024) : EReal :=
  ∑ p : Fin 256, x (row t p) j * y (row t p) h

/-- What an accumulator holds after tile n when each tile adds a and then takes away s, from zero. -/
def wchain (a s : Fin 32 → EReal) : (n : ℕ) → n < 32 → EReal
  | 0, h => (0 + a ⟨0, h⟩) - s ⟨0, h⟩
  | n + 1, h => (wchain a s n (Nat.lt_of_succ_lt h) + a ⟨n + 1, h⟩) - s ⟨n + 1, h⟩

/-- The weight gradient as the tiled program leaves it: after the last tile, adding the model-phase share
    and taking away the data-phase share, tile by tile. -/
def kwOf (v vk : Fin 8192 → Fin 2048 → EReal) (hd hf : Fin 8192 → Fin 1024 → EReal) (j : Fin 2048) (h : Fin 1024) : EReal :=
  wchain (fun t => tileDot vk hf t j h) (fun t => tileDot v hd t j h) 31 (by decide)

namespace Inp

variable (I : Inp)

/-! ### The tiled program's arrangement -/

/-- The summed absolute error over the whole batch (before the division by the number of entries). -/
def SRe : EReal := ∑ b : Fin 8192, ∑ j : Fin 2048, I.Ae b j
/-- The mean absolute error as the tiled program forms it: one division by 8192 · 2048 = 2²⁴. -/
def KRe : EReal := Ideal.div I.SRe ((16777216 : ℝ) : EReal)
/-- The visible-bias gradient as a sum of per-row differences. -/
def KVb (j : Fin 2048) : EReal := ∑ b : Fin 8192, (I.Vk b j - I.v b j)
/-- The hidden-bias gradient as a sum of per-row differences. -/
def KHb (h : Fin 1024) : EReal := ∑ b : Fin 8192, (I.Hf b h - I.Hp b h)
/-- The weight gradient, accumulated tile by tile. -/
def KW (j : Fin 2048) (h : Fin 1024) : EReal := kwOf I.v I.Vk I.Hd I.Hf j h

/-! ### The plain arrangement -/

/-- The mean over the rows of the mean over a row. -/
def RRe : EReal := Ideal.div (∑ b : Fin 8192, Ideal.div (∑ j : Fin 2048, I.Ae b j) ((2048 : ℝ) : EReal)) ((8192 : ℝ) : EReal)
def RVb (j : Fin 2048) : EReal := (∑ b : Fin 8192, I.Vk b j) - ∑ b : Fin 8192, I.v b j
def RHb (h : Fin 1024) : EReal := (∑ b : Fin 8192, I.Hf b h) - ∑ b : Fin 8192, I.Hp b h
def RW (j : Fin 2048) (h : Fin 1024) : EReal := (∑ b : Fin 8192, I.Vk b j * I.Hf b h) - ∑ b : Fin 8192, I.v b j * I.Hd b h

end Inp

/-- Every entry of the batch is a real number (neither infinity). -/
def Inp.FiniteV (I : Inp) : Prop := ∀ b j, ∃ r : ℝ, I.v b j = (r : EReal)

/-! ## Arrays in, arrays out -/

/-- The inputs read off the six argument arrays: the transpose by swapping coordinates, the draws by their leading
    coordinate. -/
def ofArgs (a0 : (⟨2, ![8192, 2048]⟩ : Shape).Idx → EReal) (a1 : (⟨2, ![2048, 1024]⟩ : Shape).Idx → EReal)
    (a2 : (⟨1, ![2048]⟩ : Shape).Idx → EReal) (a3 : (⟨1, ![1024]⟩ : Shape).Idx → EReal)
    (a4 : (⟨3, ![2, 8192, 1024]⟩ : Shape).Idx → EReal) (a5 : (⟨3, ![1, 8192, 2048]⟩ : Shape).Idx → EReal) : Inp where
  v b j := a0 (ix2 b j)
  w k h := a1 (ix2 k h)
  wt h j := a1 (ix2 j h)
  vb j := a2 (ix1 j)
  hb h := a3 (ix1 h)
  u0 b h := a4 (ix3 (0 : Fin 2) b h)
  u1 b h := a4 (ix3 (1 : Fin 2) b h)
  uv b j := a5 (ix3 (0 : Fin 1) b j)

/-- The hidden probabilities as an array. -/
def resHp (I : Inp) : (⟨2, ![8192, 1024]⟩ : Shape).Idx → EReal := fun i => I.Hp (i 0) (i 1)
def resHd (I : Inp) : (⟨2, ![8192, 1024]⟩ : Shape).Idx → EReal := fun i => I.Hd (i 0) (i 1)
def resVk (I : Inp) : (⟨2, ![8192, 2048]⟩ : Shape).Idx → EReal := fun i => I.Vk (i 0) (i 1)
def resHf (I : Inp) : (⟨2, ![8192, 1024]⟩ : Shape).Idx → EReal := fun i => I.Hf (i 0) (i 1)

/-- A scalar as a rank-0 array. -/
def scal (x : EReal) : (⟨0, ![]⟩ : Shape).Idx → EReal := fun _ => x
def vecVb (f : Fin 2048 → EReal) : (⟨1, ![2048]⟩ : Shape).Idx → EReal := fun i => f (i 0)
def vecHb (f : Fin 1024 → EReal) : (⟨1, ![1024]⟩ : Shape).Idx → EReal := fun i => f (i 0)
def matW (f : Fin 2048 → Fin 1024 → EReal) : (⟨2, ![2048, 1024]⟩ : Shape).Idx → EReal := fun i => f (i 0) (i 1)

end Cert.Rbm

end
-- ==== Proof.Algebra.lean ====
/- The two arrangements of the four accumulated results agree when the batch is finite.

   A sum of per-row differences is the difference of the sums, a mean of means is one division by the product of
   the two counts, and an accumulator that adds one share and takes away another, tile after tile, ends at the
   difference of the two totals: each holds for real numbers, and every term here is one (a batch entry by
   hypothesis, a probability and a 0/1 sample always). -/
import proofs.«102447_j17806934409607_1_alg».proof.Proof.Spec

noncomputable section

namespace Cert.Rbm

open Idealize.ShloMosaic
open scoped BigOperators

/-! ## Real numbers inside the extended reals -/

/-- The inclusion of the reals carries a finite sum to the sum of the inclusions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real terms, the sum of the differences is the difference of the sums. -/
private theorem sum_sub_of_real {ι : Type*} (s : Finset ι) (f g : ι → EReal)
    (hf : ∀ i, ∃ r : ℝ, f i = (r : EReal)) (hg : ∀ i, ∃ r : ℝ, g i = (r : EReal)) :
    ∑ i ∈ s, (f i - g i) = (∑ i ∈ s, f i) - ∑ i ∈ s, g i := by
  choose f' hf' using hf
  choose g' hg' using hg
  simp only [hf', hg', ← EReal.coe_sub, ← coe_sum, Finset.sum_sub_distrib]

/-- A 0/1 indicator is a real number. -/
private theorem gt_real (a b : EReal) : ∃ r : ℝ, gt a b = (r : EReal) := ⟨_, rfl⟩

/-- The logistic function takes a real value at every extended real: 0 at −∞, 1 at +∞. -/
private theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The larger of two reals is a real. -/
private theorem max_real (a b : EReal) (ha : ∃ r : ℝ, a = (r : EReal)) (hb : ∃ r : ℝ, b = (r : EReal)) :
    ∃ r : ℝ, max a b = (r : EReal) := by
  rcases max_choice a b with h | h
  · rw [h]; exact ha
  · rw [h]; exact hb

namespace Inp

variable (I : Inp)

private theorem Hp_real (b : Fin 8192) (h : Fin 1024) : ∃ r : ℝ, I.Hp b h = (r : EReal) := logistic_real _
private theorem Hd_real (b : Fin 8192) (h : Fin 1024) : ∃ r : ℝ, I.Hd b h = (r : EReal) := gt_real _ _
private theorem Vk_real (b : Fin 8192) (j : Fin 2048) : ∃ r : ℝ, I.Vk b j = (r : EReal) := gt_real _ _
private theorem Hf_real (b : Fin 8192) (h : Fin 1024) : ∃ r : ℝ, I.Hf b h = (r : EReal) := gt_real _ _

private theorem Ae_real (hv : I.FiniteV) (b : Fin 8192) (j : Fin 2048) : ∃ r : ℝ, I.Ae b j = (r : EReal) := by
  obtain ⟨x, hx⟩ := hv b j
  obtain ⟨p, hp⟩ := logistic_real (I.vb j + ∑ h : Fin 1024, hprob I.w I.hb (I.v b) h * I.wt h j)
  have hd : I.v b j - vprob I.wt I.vb (hprob I.w I.hb (I.v b)) j = ((x - p : ℝ) : EReal) := by
    rw [vprob, hx, hp, EReal.coe_sub]
  unfold Ae aerr
  rw [hd]
  exact max_real _ _ ⟨_, rfl⟩ ⟨-(x - p), by rw [EReal.coe_neg]⟩

end Inp

/-! ## The tile-by-tile accumulator over real shares -/

/-- With real shares, the accumulator after tile n holds the sum over the first n + 1 tiles of the differences. -/
private theorem wchain_real (a s : Fin 32 → EReal) (A S : ℕ → ℝ)
    (ha : ∀ t : Fin 32, a t = ((A t.val : ℝ) : EReal)) (hs : ∀ t : Fin 32, s t = ((S t.val : ℝ) : EReal)) :
    ∀ (n : ℕ) (h : n < 32), wchain a s n h = ((∑ t ∈ Finset.range (n + 1), (A t - S t) : ℝ) : EReal)
  | 0, h => by
    rw [wchain, ha, hs, zero_add, ← EReal.coe_sub, Finset.sum_range_one]
  | n + 1, h => by
    rw [wchain, wchain_real a s A S ha hs n (Nat.lt_of_succ_lt h), ha, hs, ← EReal.coe_add, ← EReal.coe_sub,
      Finset.sum_range_succ _ (n + 1)]
    congr 1
    ring

/-- A real function of the 32 tiles, continued by zero to all naturals. -/
private def ext32 (f : Fin 32 → ℝ) (n : ℕ) : ℝ := if h : n < 32 then f ⟨n, h⟩ else 0

private theorem ext32_val (f : Fin 32 → ℝ) (t : Fin 32) : ext32 f t.val = f t := by
  unfold ext32
  rw [dif_pos t.isLt]

/-- After the last tile the accumulator holds the sum over all 32 tiles of the differences of the shares. -/
private theorem wchain_last (a s : Fin 32 → EReal) (a' s' : Fin 32 → ℝ)
    (ha : ∀ t : Fin 32, a t = ((a' t : ℝ) : EReal)) (hs : ∀ t : Fin 32, s t = ((s' t : ℝ) : EReal))
    (h : 31 < 32) : wchain a s 31 h = ((∑ t : Fin 32, (a' t - s' t) : ℝ) : EReal) := by
  rw [wchain_real a s (ext32 a') (ext32 s') (fun t => by rw [ext32_val, ha]) (fun t => by rw [ext32_val, hs]) 31 h]
  rw [EReal.coe_eq_coe_iff, show (31 + 1 : ℕ) = 32 from rfl, Finset.sum_range]
  exact Finset.sum_congr rfl (fun t _ => by rw [ext32_val, ext32_val])

namespace Inp

variable (I : Inp)

/-- The mean absolute error: one division by 2²⁴ of the total is the mean over the rows of the row means. -/
theorem KRe_eq_RRe (hv : I.FiniteV) : I.KRe = I.RRe := by
  choose ae hae using I.Ae_real hv
  unfold KRe RRe SRe
  rw [Ideal.div_coe (show (16777216 : ℝ) ≠ 0 by norm_num), Ideal.div_coe (show (8192 : ℝ) ≠ 0 by norm_num)]
  simp only [Ideal.div_coe (show (2048 : ℝ) ≠ 0 by norm_num), hae, ← coe_sum, ← EReal.coe_mul]
  congr 1
  rw [← Finset.sum_mul, mul_assoc]
  norm_num

/-- The visible-bias gradient: the sum of per-row differences is the difference of the two sums. -/
theorem KVb_eq_RVb (hv : I.FiniteV) (j : Fin 2048) : I.KVb j = I.RVb j :=
  sum_sub_of_real _ _ _ (fun b => I.Vk_real b j) (fun b => hv b j)

/-- The hidden-bias gradient likewise (probabilities and samples are always real). -/
theorem KHb_eq_RHb (h : Fin 1024) : I.KHb h = I.RHb h :=
  sum_sub_of_real _ _ _ (fun b => I.Hf_real b h) (fun b => I.Hp_real b h)

/-- The weight gradient: the tile-by-tile accumulator ends at the difference of the two products. -/
theorem KW_eq_RW (hv : I.FiniteV) (j : Fin 2048) (h : Fin 1024) : I.KW j h = I.RW j h := by
  choose v' hv' using hv
  choose vk hvk using I.Vk_real
  choose hd hhd using I.Hd_real
  choose hf hhf using I.Hf_real
  -- each tile's two shares are real sums of real products
  have hA : ∀ t : Fin 32, tileDot I.Vk I.Hf t j h
      = ((∑ p : Fin 256, vk (row t p) j * hf (row t p) h : ℝ) : EReal) := by
    intro t
    simp only [tileDot, hvk, hhf, ← EReal.coe_mul, ← coe_sum]
  have hS : ∀ t : Fin 32, tileDot I.v I.Hd t j h
      = ((∑ p : Fin 256, v' (row t p) j * hd (row t p) h : ℝ) : EReal) := by
    intro t
    simp only [tileDot, hv', hhd, ← EReal.coe_mul, ← coe_sum]
  unfold KW kwOf RW
  rw [wchain_last _ _ _ _ hA hS]
  simp only [hvk, hhf, hv', hhd, ← EReal.coe_mul, ← coe_sum, ← EReal.coe_sub]
  congr 1
  -- over the reals: the tiles' differences regroup into one sum over all rows
  rw [← Finset.sum_sub_distrib]
  simp only [← Finset.sum_sub_distrib]
  exact Cert.BlockSum.sum_blocks (B := 32) (R := 256) (N := 8192) rfl (fun b => vk b j * hf b h - v' b j * hd b h)

end Inp

end Cert.Rbm

end
-- ==== Proof.Finite.lean ====
/- From the printed precondition to the fact the algebra needs: the precondition is a conjunction of six
   "every entry is below +infinity in absolute value" tests, one per input; its first conjunct says every entry of
   the batch is a real number. -/
import proofs.«102447_j17806934409607_1_alg».proof.Pre_finite_inputs
import proofs.«102447_j17806934409607_1_alg».proof.Proof.Spec
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- A strict comparison that came out 1 holds. -/
private theorem lt_of_cmp_olt {x y : EReal} (h : Ideal.cmp .olt x y = 1#1) : x < y := by
  by_contra hlt
  simp [Ideal.cmp, hlt] at h

/-- Where the precondition holds, every entry of the first argument (the batch) is a real number. -/
theorem arg0_real (a0 : FVec Ideal S8192x2048 .f32) (a1 : FVec Ideal S2048x1024 .f32) (a2 : FVec Ideal S2048 .f32)
    (a3 : FVec Ideal S1024 .f32) (a4 : FVec Ideal S2x8192x1024 .f32) (a5 : FVec Ideal S1x8192x2048 .f32)
    (h : Cert.Pre_finite_inputs.fn (F := Ideal) a0 a1 a2 a3 a4 a5 = fun _ => 1#1) :
    ∀ i : S8192x2048.Idx, ∃ r : ℝ, a0 i = (r : EReal) := by
  intro i
  haveI : Subsingleton S_.Idx := ⟨fun a b => funext fun d => d.elim0⟩
  -- the precondition at its one index is a conjunction of six tests; the batch's test is the innermost left one
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  -- a conjunction over all entries that is 1 is 1 at entry i: |a0 i| is below the constant, which denotes +∞
  have h6 := Host.reduce_andi_all _ _ _ _ _ h5 i
  have h7 : Ideal.cmp .olt (max (a0 i : EReal) (-(a0 i : EReal))) (Ideal.ofBits .f32 0x7F800000#32) = 1#1 := h6
  have htop : Ideal.ofBits .f32 0x7F800000#32 = (⊤ : EReal) := by simp [Ideal.ofBits, Ideal.ieee]
  rw [htop] at h7
  have h8 : max (a0 i : EReal) (-(a0 i : EReal)) < ⊤ := lt_of_cmp_olt h7
  -- an extended real whose absolute value is below +∞ is neither infinity
  generalize (a0 i : EReal) = x at h8 ⊢
  induction x using EReal.rec with
  | bot => simp at h8
  | coe r => exact ⟨r, rfl⟩
  | top => simp at h8

/-- So the specification's inputs read off the arguments have a finite batch. -/
theorem finiteV (a0 : FVec Ideal S8192x2048 .f32) (a1 : FVec Ideal S2048x1024 .f32) (a2 : FVec Ideal S2048 .f32)
    (a3 : FVec Ideal S1024 .f32) (a4 : FVec Ideal S2x8192x1024 .f32) (a5 : FVec Ideal S1x8192x2048 .f32)
    (h : Cert.Pre_finite_inputs.fn (F := Ideal) a0 a1 a2 a3 a4 a5 = fun _ => 1#1) :
    (Cert.Rbm.ofArgs a0 a1 a2 a3 a4 a5).FiniteV :=
  fun b j => arg0_real a0 a1 a2 a3 a4 a5 h (ix2 b j)

end Cert.Pre_finite_inputs.Finite

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.RefSpec.lean ====
/- The plain program's five results, read one operation at a time, are the plain arrangement of the
   specification: the logistic function spelt as 1 / (1 + e^(−x)) is the logistic function, a comparison turned
   into a number is the 0/1 sample, each product is a sum over its contracted coordinate, each reduction a sum over
   the batch. -/
import proofs.«102447_j17806934409607_1_alg».proof.Proof.Spec
import proofs.«102447_j17806934409607_1_alg».proof.Proof.LibDotPlain
import proofs.«102447_j17806934409607_1_alg».proof.Proof.LibKeepdims
import proofs.«102447_j17806934409607_1_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 : (⟨S8192x2048, .f32⟩ : BufTy).Contents (Elt Ideal)) (x1 : (⟨S2048x1024, .f32⟩ : BufTy).Contents (Elt Ideal))
  (x2 : (⟨S2048, .f32⟩ : BufTy).Contents (Elt Ideal)) (x3 : (⟨S1024, .f32⟩ : BufTy).Contents (Elt Ideal))
  (x4 : (⟨S2x8192x1024, .f32⟩ : BufTy).Contents (Elt Ideal)) (x5 : (⟨S1x8192x2048, .f32⟩ : BufTy).Contents (Elt Ideal))

local notation "𝓘" => Cert.Rbm.ofArgs x0 x1 x2 x3 x4 x5

/-! ## The constants the program spells -/

/-- The word of 1.0 denotes 1. -/
private theorem bits_one : Ideal.ofBits .f32 0x3F800000#32 = 1 := by
  simp [Ideal.ofBits, Ideal.ieee, -EReal.coe_mul]; norm_num

/-- The word of 2048.0 denotes 2048. -/
private theorem bits_2048 : Ideal.ofBits .f32 0x45000000#32 = ((2048 : ℝ) : EReal) := by
  simp [Ideal.ofBits, Ideal.ieee, -EReal.coe_mul]; norm_num

/-- The word of 8192.0 denotes 8192. -/
private theorem bits_8192 : Ideal.ofBits .f32 0x46000000#32 = ((8192 : ℝ) : EReal) := by
  simp [Ideal.ofBits, Ideal.ieee, -EReal.coe_mul]; norm_num

/-- A sum over a rank-1 index set is the sum over its one coordinate. -/
private theorem sum_rank1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

/-! ## The stages at an index

Each stage of the chain is read at a pair of coordinates, bottom-up: a later stage contains the earlier ones as
sub-terms and is rewritten with their lemmas. -/

/-- The hidden probability of row b, unit h: 1 / (1 + e^(−(hb h + Σₖ v b k · w k h))). -/
private theorem v9_at (b : Fin 8192) (h : Fin 1024) :
    val_main_v9 (F := Ideal) x0 x1 x3 (ix2 b h) = Cert.Rbm.hprob (𝓘).w (𝓘).hb ((𝓘).v b) h := by
  have e1 : idx_main_v1 (idx_main_v2 (ix2 b h)) = ix1 h := funext fun a => Fin.ext (by match a with | ⟨0, _⟩ => rfl)
  have e2 : ∀ k : Fin 2048, lidx_main_v0 (ix2 b h) k = ix2 b k := fun k => funext fun a => Fin.ext (by match a with | ⟨0, _⟩ => rfl | ⟨1, _⟩ => rfl)
  have e3 : ∀ k : Fin 2048, ridx_main_v0 (ix2 b h) k = ix2 k h := fun k => funext fun a => Fin.ext (by match a with | ⟨0, _⟩ => rfl | ⟨1, _⟩ => rfl)
  rw [val_main_v9_apply, val_main_v8_apply, val_main_cst_0_apply, val_main_v7_apply, val_main_v6_apply,
    val_main_cst_apply, val_main_v5_apply, val_main_v4_apply, val_main_v3_apply, val_main_v2_apply,
    val_main_v1_apply, val_main_v0_apply, e1]
  simp only [e2, e3]
  simp only [Ideal.hostDivf_def, Ideal.ofBits_def, Ideal.addf_def, Ideal.hostUnary_exp_def, Ideal.hostNegf_def,
    Ideal.negf_def, bits_one]
  rfl

/-- The mean-field reconstruction of row b, unit j: the visible probability of the row of hidden probabilities;
    the transposed weights read w with the coordinates swapped. -/
private theorem v20_at (b : Fin 8192) (j : Fin 2048) :
    val_main_v20 (F := Ideal) x0 x1 x2 x3 (ix2 b j)
      = Cert.Rbm.vprob (𝓘).wt (𝓘).vb (Cert.Rbm.hprob (𝓘).w (𝓘).hb ((𝓘).v b)) j := by
  have e1 : idx_main_v12 (idx_main_v13 (ix2 b j)) = ix1 j := funext fun a => Fin.ext (by match a with | ⟨0, _⟩ => rfl)
  have e2 : ∀ k : Fin 1024, lidx_main_v11 (ix2 b j) k = ix2 b k := fun k => funext fun a => Fin.ext (by match a with | ⟨0, _⟩ => rfl | ⟨1, _⟩ => rfl)
  have e3 : ∀ k : Fin 1024, idx_main_v10 (ridx_main_v11 (ix2 b j) k) = ix2 j k := fun k => funext fun a => Fin.ext (by match a with | ⟨0, _⟩ => rfl | ⟨1, _⟩ => rfl)
  rw [val_main_v20_apply, val_main_v19_apply, val_main_cst_2_apply, val_main_v18_apply, val_main_v17_apply,
    val_main_cst_1_apply, val_main_v16_apply, val_main_v15_apply, val_main_v14_apply, val_main_v13_apply,
    val_main_v12_apply, val_main_v11_apply, e1]
  simp only [val_main_v10_apply, e2, e3, v9_at x0 x1 x2 x3 x4 x5]
  simp only [Ideal.hostDivf_def, Ideal.ofBits_def, Ideal.addf_def, Ideal.hostUnary_exp_def, Ideal.hostNegf_def,
    Ideal.negf_def, bits_one]
  rfl

/-- The absolute reconstruction error of row b, unit j. -/
private theorem v22_at (b : Fin 8192) (j : Fin 2048) :
    val_main_v22 (F := Ideal) x0 x1 x2 x3 (ix2 b j) = Cert.Rbm.aerr (𝓘).w (𝓘).wt (𝓘).vb (𝓘).hb ((𝓘).v b) j := by
  rw [val_main_v22_apply, val_main_v21_apply, v20_at x0 x1 x2 x3 x4 x5]
  rfl

/-- The first hidden sample: the comparison with the first array of draws, as a number. -/
private theorem v31_at (b : Fin 8192) (h : Fin 1024) :
    val_main_v31 (F := Ideal) x0 x1 x3 x4 (ix2 b h) = Cert.Rbm.hdat (𝓘).w (𝓘).hb ((𝓘).v b) ((𝓘).u0 b) h := by
  have e : idx_main_v28 (idx_main_v29 (ix2 b h)) = ix3 (0 : Fin 2) b h := funext fun a => Fin.ext (by
    match a with
    | ⟨0, _⟩ => rfl
    | ⟨1, _⟩ => show (b.val * 1024 + h.val) / 1024 % 8192 = b.val; have := b.isLt; have := h.isLt; omega
    | ⟨2, _⟩ => show (b.val * 1024 + h.val) % 1024 = h.val; have := h.isLt; omega)
  rw [val_main_v31_apply, val_main_v30_apply, val_main_v29_apply, val_main_v28_apply, e, v9_at x0 x1 x2 x3 x4 x5]
  rfl

/-- The visible probability of the first hidden sample. -/
private theorem v45_at (b : Fin 8192) (j : Fin 2048) :
    val_main_v45 (F := Ideal) x0 x1 x2 x3 x4 (ix2 b j)
      = Cert.Rbm.vprob (𝓘).wt (𝓘).vb (Cert.Rbm.hdat (𝓘).w (𝓘).hb ((𝓘).v b) ((𝓘).u0 b)) j := by
  have e1 : idx_main_v37 (idx_main_v38 (ix2 b j)) = ix1 j := funext fun a => Fin.ext (by match a with | ⟨0, _⟩ => rfl)
  have e2 : ∀ k : Fin 1024, lidx_main_v36 (ix2 b j) k = ix2 b k := fun k => funext fun a => Fin.ext (by match a with | ⟨0, _⟩ => rfl | ⟨1, _⟩ => rfl)
  have e3 : ∀ k : Fin 1024, idx_main_v35 (ridx_main_v36 (ix2 b j) k) = ix2 j k := fun k => funext fun a => Fin.ext (by match a with | ⟨0, _⟩ => rfl | ⟨1, _⟩ => rfl)
  rw [val_main_v45_apply, val_main_v44_apply, val_main_cst_10_apply, val_main_v43_apply, val_main_v42_apply,
    val_main_cst_9_apply, val_main_v41_apply, val_main_v40_apply, val_main_v39_apply, val_main_v38_apply,
    val_main_v37_apply, val_main_v36_apply, e1]
  simp only [val_main_v35_apply, e2, e3, v31_at x0 x1 x2 x3 x4 x5]
  simp only [Ideal.hostDivf_def, Ideal.ofBits_def, Ideal.addf_def, Ideal.hostUnary_exp_def, Ideal.hostNegf_def,
    Ideal.negf_def, bits_one]
  rfl

/-- The visible sample: the comparison with the visible draws, as a number. -/
private theorem v48_at (b : Fin 8192) (j : Fin 2048) :
    val_main_v48 (F := Ideal) x0 x1 x2 x3 x4 x5 (ix2 b j)
      = Cert.Rbm.vsam (𝓘).w (𝓘).wt (𝓘).vb (𝓘).hb ((𝓘).v b) ((𝓘).u0 b) ((𝓘).uv b) j := by
  have e : idx_main_v46 (ix2 b j) = ix3 (0 : Fin 1) b j := funext fun a => Fin.ext (by
    match a with
    | ⟨0, _⟩ => rfl
    | ⟨1, _⟩ => show (b.val * 2048 + j.val) / 2048 % 8192 = b.val; have := b.isLt; have := j.isLt; omega
    | ⟨2, _⟩ => show (b.val * 2048 + j.val) % 2048 = j.val; have := j.isLt; omega)
  rw [val_main_v48_apply, val_main_v47_apply, val_main_v46_apply, e, v45_at x0 x1 x2 x3 x4 x5]
  rfl

/-- The hidden probability of the visible sample. -/
private theorem v58_at (b : Fin 8192) (h : Fin 1024) :
    val_main_v58 (F := Ideal) x0 x1 x2 x3 x4 x5 (ix2 b h)
      = Cert.Rbm.hprob (𝓘).w (𝓘).hb (Cert.Rbm.vsam (𝓘).w (𝓘).wt (𝓘).vb (𝓘).hb ((𝓘).v b) ((𝓘).u0 b) ((𝓘).uv b)) h := by
  have e1 : idx_main_v50 (idx_main_v51 (ix2 b h)) = ix1 h := funext fun a => Fin.ext (by match a with | ⟨0, _⟩ => rfl)
  have e2 : ∀ k : Fin 2048, lidx_main_v49 (ix2 b h) k = ix2 b k := fun k => funext fun a => Fin.ext (by match a with | ⟨0, _⟩ => rfl | ⟨1, _⟩ => rfl)
  have e3 : ∀ k : Fin 2048, ridx_main_v49 (ix2 b h) k = ix2 k h := fun k => funext fun a => Fin.ext (by match a with | ⟨0, _⟩ => rfl | ⟨1, _⟩ => rfl)
  rw [val_main_v58_apply, val_main_v57_apply, val_main_cst_12_apply, val_main_v56_apply, val_main_v55_apply,
    val_main_cst_11_apply, val_main_v54_apply, val_main_v53_apply, val_main_v52_apply, val_main_v51_apply,
    val_main_v50_apply, val_main_v49_apply, e1]
  simp only [e2, e3, v48_at x0 x1 x2 x3 x4 x5]
  simp only [Ideal.hostDivf_def, Ideal.ofBits_def, Ideal.addf_def, Ideal.hostUnary_exp_def, Ideal.hostNegf_def,
    Ideal.negf_def, bits_one]
  rfl

/-- The second hidden sample: the comparison with the second array of draws, as a number. -/
private theorem v62_at (b : Fin 8192) (h : Fin 1024) :
    val_main_v62 (F := Ideal) x0 x1 x2 x3 x4 x5 (ix2 b h)
      = Cert.Rbm.hfin (𝓘).w (𝓘).wt (𝓘).vb (𝓘).hb ((𝓘).v b) ((𝓘).u0 b) ((𝓘).uv b) ((𝓘).u1 b) h := by
  have e : idx_main_v59 (idx_main_v60 (ix2 b h)) = ix3 (1 : Fin 2) b h := funext fun a => Fin.ext (by
    match a with
    | ⟨0, _⟩ => rfl
    | ⟨1, _⟩ => show (b.val * 1024 + h.val) / 1024 % 8192 = b.val; have := b.isLt; have := h.isLt; omega
    | ⟨2, _⟩ => show (b.val * 1024 + h.val) % 1024 = h.val; have := h.isLt; omega)
  rw [val_main_v62_apply, val_main_v61_apply, val_main_v60_apply, val_main_v59_apply, e, v58_at x0 x1 x2 x3 x4 x5]
  rfl

/-! ## The five results -/

/-- The hidden probabilities. -/
theorem v9_eq : val_main_v9 (F := Ideal) x0 x1 x3 = Cert.Rbm.resHp (Cert.Rbm.ofArgs x0 x1 x2 x3 x4 x5) := by
  funext i
  obtain ⟨b, h, rfl⟩ : ∃ (b : Fin 8192) (h : Fin 1024), i = ix2 b h := ⟨i 0, i 1, eq_ix2 i⟩
  rw [v9_at x0 x1 x2 x3 x4 x5]
  rfl

/-- The mean absolute reconstruction error: each row's sum over its 2048 units divided by 2048, and the sum of
    those over the 8192 rows divided by 8192; both sums start from zero. -/
theorem v27_eq : val_main_v27 (F := Ideal) x0 x1 x2 x3 = Cert.Rbm.scal (Cert.Rbm.ofArgs x0 x1 x2 x3 x4 x5).RRe := by
  funext i
  have e : ∀ (b : Fin 8192) (k : Fin 2048), idx_main_v23 (ix1 b) k = ix2 b k := fun b k => funext fun a => Fin.ext (by match a with | ⟨0, _⟩ => rfl | ⟨1, _⟩ => rfl)
  rw [val_main_v27_apply, val_main_v26_apply, val_main_cst_6_apply, val_main_cst_5_apply, sum_rank1]
  simp only [val_main_v25_apply, val_main_v24_apply, val_main_cst_4_apply, val_main_v23_apply, val_main_cst_3_apply,
    e, v22_at x0 x1 x2 x3 x4 x5]
  simp only [Ideal.hostDivf_def, Ideal.ofBits_def, Ideal.ofBits_zero_f32, zero_add, bits_2048, bits_8192]
  rfl

/-- The visible-bias gradient. -/
theorem v66_eq : val_main_v66 (F := Ideal) x0 x1 x2 x3 x4 x5 = Cert.Rbm.vecVb (Cert.Rbm.ofArgs x0 x1 x2 x3 x4 x5).RVb := by
  funext i
  obtain ⟨j, rfl⟩ : ∃ j : Fin 2048, i = ix1 j := ⟨i 0, eq_ix1 i⟩
  have e1 : ∀ k : Fin 8192, idx_main_v63 (ix1 j) k = ix2 k j := fun k => funext fun a => Fin.ext (by match a with | ⟨0, _⟩ => rfl | ⟨1, _⟩ => rfl)
  have e2 : ∀ k : Fin 8192, idx_main_v32 (ix1 j) k = ix2 k j := fun k => funext fun a => Fin.ext (by match a with | ⟨0, _⟩ => rfl | ⟨1, _⟩ => rfl)
  rw [val_main_v66_apply, val_main_v63_apply, val_main_v32_apply, val_main_cst_13_apply, val_main_cst_7_apply]
  simp only [e1, e2, v48_at x0 x1 x2 x3 x4 x5, Ideal.ofBits_def, Ideal.ofBits_zero_f32, zero_add, Ideal.subf_def]
  rfl

/-- The hidden-bias gradient. -/
theorem v67_eq : val_main_v67 (F := Ideal) x0 x1 x2 x3 x4 x5 = Cert.Rbm.vecHb (Cert.Rbm.ofArgs x0 x1 x2 x3 x4 x5).RHb := by
  funext i
  obtain ⟨h, rfl⟩ : ∃ h : Fin 1024, i = ix1 h := ⟨i 0, eq_ix1 i⟩
  have e1 : ∀ k : Fin 8192, idx_main_v64 (ix1 h) k = ix2 k h := fun k => funext fun a => Fin.ext (by match a with | ⟨0, _⟩ => rfl | ⟨1, _⟩ => rfl)
  have e2 : ∀ k : Fin 8192, idx_main_v33 (ix1 h) k = ix2 k h := fun k => funext fun a => Fin.ext (by match a with | ⟨0, _⟩ => rfl | ⟨1, _⟩ => rfl)
  rw [val_main_v67_apply, val_main_v64_apply, val_main_v33_apply, val_main_cst_14_apply, val_main_cst_8_apply]
  simp only [e1, e2, v62_at x0 x1 x2 x3 x4 x5, v9_at x0 x1 x2 x3 x4 x5, Ideal.ofBits_def, Ideal.ofBits_zero_f32, zero_add,
    Ideal.subf_def]
  rfl

/-- The weight gradient: both products contract the batch coordinate. -/
theorem v68_eq : val_main_v68 (F := Ideal) x0 x1 x2 x3 x4 x5 = Cert.Rbm.matW (Cert.Rbm.ofArgs x0 x1 x2 x3 x4 x5).RW := by
  funext i
  obtain ⟨j, h, rfl⟩ : ∃ (j : Fin 2048) (h : Fin 1024), i = ix2 j h := ⟨i 0, i 1, eq_ix2 i⟩
  have e1 : ∀ k : Fin 8192, lidx_main_v65 (ix2 j h) k = ix2 k j := fun k => funext fun a => Fin.ext (by match a with | ⟨0, _⟩ => rfl | ⟨1, _⟩ => rfl)
  have e2 : ∀ k : Fin 8192, ridx_main_v65 (ix2 j h) k = ix2 k h := fun k => funext fun a => Fin.ext (by match a with | ⟨0, _⟩ => rfl | ⟨1, _⟩ => rfl)
  have e3 : ∀ k : Fin 8192, lidx_main_v34 (ix2 j h) k = ix2 k j := fun k => funext fun a => Fin.ext (by match a with | ⟨0, _⟩ => rfl | ⟨1, _⟩ => rfl)
  have e4 : ∀ k : Fin 8192, ridx_main_v34 (ix2 j h) k = ix2 k h := fun k => funext fun a => Fin.ext (by match a with | ⟨0, _⟩ => rfl | ⟨1, _⟩ => rfl)
  rw [val_main_v68_apply, val_main_v65_apply, val_main_v34_apply]
  simp only [e1, e2, e3, e4, v48_at x0 x1 x2 x3 x4 x5, v62_at x0 x1 x2 x3 x4 x5, v31_at x0 x1 x2 x3 x4 x5, Ideal.subf_def]
  rfl

end Cert.ReferenceIdeal.RefValue

end
-- ==== Proof.Pieces.lean ====
/- What each case of the two kernel bodies leaves in each output's staging buffer, as the body's own arithmetic
   of the input blocks: every output is written by one store covering its whole block, so the buffer ends at that
   store's value; a value loaded back after a store of the same buffer is the value stored. At the first grid point
   the three accumulators (and, in the second kernel, the weight-gradient block) are first set to zero and then
   read back; at every later point they are read as the point before left them. -/
import proofs.«102447_j17806934409607_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

/-- The zero offsets of a whole-buffer access, spelt as a literal vector, are the constant-zero function. -/
private theorem hz : (![0, 0] : Fin 2 → Nat) = fun _ => 0 := funext fun a => by fin_cases a <;> rfl

/-- A load of the whole buffer after a store of the whole buffer reads that store's payload, whatever the stores
    before it left. -/
private theorem readCov_cons_unit_zero {Val : EltTy → Type} {S : Shape} {e : EltTy} [∀ e, Nonempty (Val e)]
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

theorem out0_A_8_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay9 x0 x1 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_A_9_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay11 (k0_pay9 x0 x1 x4) x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_A_10_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay13 (k0_pay6 x2) (k0_pay7 x3) (k0_pay9 x0 x1 x4) x5 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S256x2048) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_A_11_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay15 (k0_pay5 x1) (k0_pay6 x2) (k0_pay7 x3) (k0_pay8 x4) (k0_pay9 x0 x1 x4) x5 x7 x6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_A_12_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay16 x0 (k0_pay6 x2) (k0_pay7 x3) (k0_pay9 x0 x1 x4) x5 x7 (k0_pay2 (F := F)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_cons_unit_zero (S := S1x2048) hz, View.readCov_unit_zero (S := S1x2048) _ hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_A_13_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay1 (k0_pay9 x0 x1 x4) (k0_pay17 (k0_pay5 x1) (k0_pay6 x2) (k0_pay7 x3) (k0_pay8 x4) (k0_pay9 x0 x1 x4) x5 x7 x6) (k0_pay3 (F := F)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_A_14_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay10 x0 x1 x2 x3 x4 (k0_pay4 (F := F)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_8_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay9 x0 x1 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_9_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay11 (k0_pay9 x0 x1 x4) x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_10_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay13 (k0_pay6 x2) (k0_pay7 x3) (k0_pay9 x0 x1 x4) x5 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S256x2048) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_11_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay15 (k0_pay5 x1) (k0_pay6 x2) (k0_pay7 x3) (k0_pay8 x4) (k0_pay9 x0 x1 x4) x5 x7 x6 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_12_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay16 x0 (k0_pay6 x2) (k0_pay7 x3) (k0_pay9 x0 x1 x4) x5 x7 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, harg8.read_unread, harg13.read_unread, harg14.read_unread, harg15.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_13_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay1 (k0_pay9 x0 x1 x4) (k0_pay17 (k0_pay5 x1) (k0_pay6 x2) (k0_pay7 x3) (k0_pay8 x4) (k0_pay9 x0 x1 x4) x5 x7 x6) xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg7.read_unread, harg8.read_unread, harg13.read_unread, harg14.read_unread, harg15.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out0_B_14_eq (c : Dev nD) (i : grid0.Coords) (arg1 : Memref sig .tc .vmem S256x2048 .f32) (harg1 : arg1.IsWhole) (arg2 : Memref sig .tc .vmem S2048x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x2048 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S1x2048 .f32) (harg13 : arg13.IsWhole) (arg14 : Memref sig .tc .vmem S1x1024 .f32) (harg14 : arg14.IsWhole) (arg15 : Memref sig .tc .vmem S1x1 .f32) (harg15 : arg15.IsWhole) (hc0 : ¬cond0_0 i) (x0 : Vec F S256x2048 .f32) (x1 : Vec F S2048x1024 .bf16) (x2 : Vec F S1024x2048 .bf16) (x3 : Vec F S1x2048 .f32) (x4 : Vec F S1x1024 .f32) (x5 : Vec F S256x1024 .f32) (x6 : Vec F S256x1024 .f32) (x7 : Vec F S256x2048 .f32) (xo12 : Vec F S1x2048 .f32) (xo13 : Vec F S1x1024 .f32) (xo14 : Vec F S1x1 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14 = k0_pay10 x0 x1 x2 x3 x4 xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xo14)]
  unfold kernelRun0_B
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg13.read_unread, harg14.read_unread, harg15.read_unread, View.ld_unit_zero (S := S256x2048) hz, View.ld_unit_zero (S := S2048x1024) hz, View.ld_unit_zero (S := S1024x2048) hz, View.ld_unit_zero (S := S1x2048) hz, View.ld_unit_zero (S := S1x1024) hz, View.ld_unit_zero (S := S256x1024) hz, View.ld_unit_zero (S := S1x1) hz, shapeCast_self]

theorem out1_A_4_eq (c : Dev nD) (i : grid1.Coords) (arg1 : Memref sig .tc .vmem S256x2048 .f32) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S2048x1024 .f32) (harg5 : arg5.IsWhole) (hc0 : cond1_0 i) (x0 : Vec F S256x2048 .f32) (x1 : Vec F S256x1024 .bf16) (x2 : Vec F S256x2048 .bf16) (x3 : Vec F S256x1024 .bf16) :
    out1_A_4 c i arg1 harg1 arg2 harg2 arg3 harg3 arg4 harg4 arg5 harg5 hc0 x0 x1 x2 x3 = k1_pay3 x0 x1 (k1_pay2 x2 x3 (k1_pay1 (F := F))) := by
  unfold out1_A_4
  rw [View.read_writes_eq_canon _ _ _ (cover1_A_4 c i arg1 harg1 arg2 harg2 arg3 harg3 arg4 harg4 arg5 harg5 hc0 x0 x1 x2 x3)]
  unfold kernelRun1_A
  dsimp only
  sl_unfold_words
  rw [View.canon_cons_unit_zero (S := S2048x1024) hz, readCov_cons_unit_zero (S := S2048x1024) _ hz,
    View.readCov_unit_zero (S := S2048x1024) _ hz]
  simp only [View.readAt_eq_ld, harg1.read_unread, harg2.read_unread, harg3.read_unread, harg4.read_unread, View.ld_unit_zero (S := S256x2048) hz, View.ld_unit_zero (S := S256x1024) hz, View.ld_unit_zero (S := S2048x1024) hz, shapeCast_self]

theorem out1_B_4_eq (c : Dev nD) (i : grid1.Coords) (arg1 : Memref sig .tc .vmem S256x2048 .f32) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S2048x1024 .f32) (harg5 : arg5.IsWhole) (hc0 : ¬cond1_0 i) (x0 : Vec F S256x2048 .f32) (x1 : Vec F S256x1024 .bf16) (x2 : Vec F S256x2048 .bf16) (x3 : Vec F S256x1024 .bf16) (xo4 : Vec F S2048x1024 .f32) :
    out1_B_4 c i arg1 harg1 arg2 harg2 arg3 harg3 arg4 harg4 arg5 harg5 hc0 x0 x1 x2 x3 xo4 = k1_pay3 x0 x1 (k1_pay2 x2 x3 xo4) := by
  unfold out1_B_4
  rw [View.read_writes_eq_canon _ _ _ (cover1_B_4 c i arg1 harg1 arg2 harg2 arg3 harg3 arg4 harg4 arg5 harg5 hc0 x0 x1 x2 x3 xo4)]
  unfold kernelRun1_B
  dsimp only
  sl_unfold_words
  rw [View.canon_cons_unit_zero (S := S2048x1024) hz, View.readCov_unit_zero (S := S2048x1024) _ hz]
  simp only [View.readAt_eq_ld, harg1.read_unread, harg2.read_unread, harg3.read_unread, harg4.read_unread, harg5.read_unread, View.ld_unit_zero (S := S256x2048) hz, View.ld_unit_zero (S := S256x1024) hz, View.ld_unit_zero (S := S2048x1024) hz, shapeCast_self]

end Cert.KernelIdeal.Pieces

end
-- ==== Proof.Pay.lean ====
/- The first kernel body's arithmetic, read at one index of a tile.

   A tile of the first kernel holds 256 rows of the batch. Its stores are, entry by entry, the specification's row
   functions of that row: the hidden probability, the two hidden samples and the visible sample; and the three
   accumulators grow by the tile's sums of per-row terms. The matrix products are sums over the contracted coordinate,
   a change of float format is the identity, a comparison turned into a number is the 0/1 sample. -/
import proofs.«102447_j17806934409607_1_alg».proof.Proof.Spec
import proofs.«102447_j17806934409607_1_alg».proof.Proof.LibDotPlain
import proofs.«102447_j17806934409607_1_alg».proof.Proof.LibKeepdims
import proofs.«102447_j17806934409607_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Rbm
open Idealize.ShloMosaic Idealize.ShloMosaic.ValueIdx
open scoped BigOperators

/-! ## What a tile sees, as functions of coordinates -/

/-- The weights as the first kernel's second operand holds them. -/
abbrev W (x1 : Vec Ideal S2048x1024 .bf16) : Fin 2048 → Fin 1024 → EReal := fun k h => x1 (ix2 k h)
/-- The transposed weights as its third operand holds them. -/
abbrev WT (x2 : Vec Ideal S1024x2048 .bf16) : Fin 1024 → Fin 2048 → EReal := fun h j => x2 (ix2 h j)
/-- The visible bias, a [1, 2048] row. -/
abbrev VB (x3 : Vec Ideal S1x2048 .f32) : Fin 2048 → EReal := fun j => x3 (ix2 (0 : Fin 1) j)
/-- The hidden bias, a [1, 1024] row. -/
abbrev HB (x4 : Vec Ideal S1x1024 .f32) : Fin 1024 → EReal := fun h => x4 (ix2 (0 : Fin 1) h)
/-- Row p of a [256, 2048] block. -/
abbrev rowV (x : Vec Ideal S256x2048 .f32) (p : Fin 256) : Fin 2048 → EReal := fun j => x (ix2 p j)
/-- Row p of a [256, 1024] block. -/
abbrev rowH (x : Vec Ideal S256x1024 .f32) (p : Fin 256) : Fin 1024 → EReal := fun h => x (ix2 p h)

/-! ## The operations that are not pointwise, read at one index -/

/-- A cast to the same shape changes nothing. -/
private theorem pay5_eq (x1 : Vec Ideal S2048x1024 .bf16) : k0_pay5 x1 = x1 := shapeCast_self _ _
private theorem pay6_eq (x2 : Vec Ideal S1024x2048 .bf16) : k0_pay6 x2 = x2 := shapeCast_self _ _
private theorem pay7_eq (x3 : Vec Ideal S1x2048 .f32) : k0_pay7 x3 = x3 := shapeCast_self _ _
private theorem pay8_eq (x4 : Vec Ideal S1x1024 .f32) : k0_pay8 x4 = x4 := shapeCast_self _ _

/-- The product of a [256, 2048] block with the [2048, 1024] weights, into zero, at (p, q). -/
private theorem mmW (l : FVec Ideal S256x2048 .bf16) (r : FVec Ideal S2048x1024 .bf16) (p : Fin 256) (q : Fin 1024) :
    matmul dot_S256x2048_S2048x1024_S256x1024_1_0_0_1_n_n none l r (constant S256x1024 .f32 0x00000000#32) (ix2 p q)
      = ∑ k : Fin 2048, l (ix2 p k) * r (ix2 k q) :=
  Cert.DotPlain.matmul_zero_rows_cols _ rfl rfl rfl rfl rfl rfl none l r p q

/-- The product of a [256, 1024] block with the [1024, 2048] transposed weights, into zero, at (p, j). -/
private theorem mmWT (l : FVec Ideal S256x1024 .bf16) (r : FVec Ideal S1024x2048 .bf16) (p : Fin 256) (j : Fin 2048) :
    matmul dot_S256x1024_S1024x2048_S256x2048_1_0_0_1_n_n none l r (constant S256x2048 .f32 0x00000000#32) (ix2 p j)
      = ∑ h : Fin 1024, l (ix2 p h) * r (ix2 h j) :=
  Cert.DotPlain.matmul_zero_rows_cols _ rfl rfl rfl rfl rfl rfl none l r p j

/-- The hidden-bias row repeated down the tile. -/
private theorem bcH (v : FVec Ideal S1x1024 .f32) (p : Fin 256) (q : Fin 1024) :
    broadcastTo S256x1024 v broadcasts_S1x1024_S256x1024 (ix2 p q) = v (ix2 (0 : Fin 1) q) :=
  broadcastTo_1b_ab_apply v _ p q

/-- The visible-bias row repeated down the tile. -/
private theorem bcV (v : FVec Ideal S1x2048 .f32) (p : Fin 256) (j : Fin 2048) :
    broadcastTo S256x2048 v broadcasts_S1x2048_S256x2048 (ix2 p j) = v (ix2 (0 : Fin 1) j) :=
  broadcastTo_1b_ab_apply v _ p j

/-- One bit widened to 32 and read as a signed integer is the bit as a natural number. -/
private theorem bit_toInt (c : BitVec 1) : (c.setWidth 32).toInt = (c.toNat : ℤ) := by
  revert c; decide

/-- A comparison turned into a number is the 0/1 sample. -/
private theorem sample_eq (a b : EReal) :
    (FloatOps.sitofp (F := Ideal) .f32 ((FloatOps.cmpf (F := Ideal) (φ := .f32) .ogt a b).setWidth 32) : EReal) = gt a b := by
  show (((((Ideal.cmp .ogt a b).setWidth 32).toInt : ℤ) : ℝ) : EReal) = (((Ideal.cmp .ogt a b).toNat : ℝ) : EReal)
  rw [bit_toInt, Int.cast_natCast]

/-- The thresholded sample of a block against a block of draws, entry by entry. -/
private theorem pay11_apply (v16 v33 : FVec Ideal S256x1024 .f32) (i : S256x1024.Idx) :
    k0_pay11 v16 v33 i = gt (v16 i) (v33 i) := by
  unfold k0_pay11
  rw [shapeCast_self]
  exact sample_eq _ _

/-- The visible sample of a tile from its hidden sample: threshold of σ(bias + sample · transposed weights). -/
private theorem pay12_apply (v7 : FVec Ideal S1024x2048 .bf16) (v9 : FVec Ideal S1x2048 .f32)
    (v16 v33 : FVec Ideal S256x1024 .f32) (v44 : FVec Ideal S256x2048 .f32) (p : Fin 256) (j : Fin 2048) :
    k0_pay12 v7 v9 v16 v33 v44 (ix2 p j)
      = gt (Ideal.logistic (v9 (ix2 (0 : Fin 1) j) + ∑ h : Fin 1024, k0_pay11 v16 v33 (ix2 p h) * v7 (ix2 h j)))
          (v44 (ix2 p j)) := by
  unfold k0_pay12
  rw [shapeCast_self]
  refine (sample_eq _ _).trans ?_
  exact congrArg (gt · _) (congrArg Ideal.logistic (congrArg₂ (· + ·) (bcV v9 p j) (mmWT _ v7 p j)))

/-- The second hidden sample of a tile from its visible sample. -/
private theorem pay14_apply (v5 : FVec Ideal S2048x1024 .bf16) (v7 : FVec Ideal S1024x2048 .bf16) (v9 : FVec Ideal S1x2048 .f32)
    (v11 : FVec Ideal S1x1024 .f32) (v16 v33 : FVec Ideal S256x1024 .f32) (v44 : FVec Ideal S256x2048 .f32)
    (v55 : FVec Ideal S256x1024 .f32) (p : Fin 256) (q : Fin 1024) :
    k0_pay14 v5 v7 v9 v11 v16 v33 v44 v55 (ix2 p q)
      = gt (Ideal.logistic (v11 (ix2 (0 : Fin 1) q) + ∑ k : Fin 2048, k0_pay13 v7 v9 v16 v33 v44 (ix2 p k) * v5 (ix2 k q)))
          (v55 (ix2 p q)) := by
  unfold k0_pay14
  rw [shapeCast_self]
  refine (sample_eq _ _).trans ?_
  exact congrArg (gt · _) (congrArg Ideal.logistic (congrArg₂ (· + ·) (bcH v11 p q) (mmW _ v5 p q)))

/-- A [256, 2048] block summed down its rows and laid out as a [1, 2048] row, at (0, j). -/
private theorem colsumV (v : FVec Ideal S256x2048 .f32) (j : Fin 2048) :
    shapeCast S1x2048 (multiReduction (F := Ideal) .add [0] S2048 v 0x00000000#32 reduces_S256x2048_S2048 (.inl rfl) rfl)
        shapeCasts_S2048_S1x2048 (ix2 (0 : Fin 1) j)
      = ∑ p : Fin 256, v (ix2 p j) :=
  (shapeCast_a_1a_apply _ _ 0 j).trans (Cert.Keepdims.sum_first2_apply v _ _ _ _ j)

/-- A [256, 1024] block summed down its rows and laid out as a [1, 1024] row, at (0, q). -/
private theorem colsumH (v : FVec Ideal S256x1024 .f32) (q : Fin 1024) :
    shapeCast S1x1024 (multiReduction (F := Ideal) .add [0] S1024 v 0x00000000#32 reduces_S256x1024_S1024 (.inl rfl) rfl)
        shapeCasts_S1024_S1x1024 (ix2 (0 : Fin 1) q)
      = ∑ p : Fin 256, v (ix2 p q) :=
  (shapeCast_a_1a_apply _ _ 0 q).trans (Cert.Keepdims.sum_first2_apply v _ _ _ _ q)

/-- A [256, 2048] block summed along its rows, then down the column of row sums: the sum of all its entries. -/
private theorem totsum (v : FVec Ideal S256x2048 .f32) :
    shapeCast S1x1 (multiReduction (F := Ideal) .add [0] S1
        (shapeCast S256x1 (multiReduction (F := Ideal) .add [1] S256 v 0x00000000#32 reduces_S256x2048_S256 (.inl rfl) rfl)
          shapeCasts_S256_S256x1) 0x00000000#32 reduces_S256x1_S1 (.inl rfl) rfl)
        shapeCasts_S1_S1x1 (ix2 (0 : Fin 1) (0 : Fin 1))
      = ∑ p : Fin 256, ∑ j : Fin 2048, v (ix2 p j) := by
  refine (shapeCast_a_1a_apply _ _ 0 0).trans ?_
  refine (Cert.Keepdims.sum_first2_apply _ _ _ _ _ 0).trans ?_
  refine Finset.sum_congr rfl fun p _ => ?_
  refine (Cert.Keepdims.shapeCast_a_a1_apply _ _ p 0).trans ?_
  exact Cert.Keepdims.sum_last2_apply v _ _ _ _ p

/-- The visible-bias accumulator: the row it held plus the column sums of (visible sample − batch block). -/
private theorem pay16_apply (v3 : FVec Ideal S256x2048 .f32) (v7 : FVec Ideal S1024x2048 .bf16) (v9 : FVec Ideal S1x2048 .f32)
    (v16 v33 : FVec Ideal S256x1024 .f32) (v44 : FVec Ideal S256x2048 .f32) (v63 : FVec Ideal S1x2048 .f32) (j : Fin 2048) :
    k0_pay16 v3 v7 v9 v16 v33 v44 v63 (ix2 (0 : Fin 1) j)
      = v63 (ix2 (0 : Fin 1) j) + ∑ p : Fin 256, (k0_pay12 v7 v9 v16 v33 v44 (ix2 p j) - v3 (ix2 p j)) := by
  unfold k0_pay16
  exact congrArg₂ (· + ·) (congrFun (shapeCast_self v63 _) _) (colsumV _ j)

/-- The hidden-bias accumulator: the row it held plus the column sums of (second block − first block). -/
private theorem pay1_apply (v16 v70 : FVec Ideal S256x1024 .f32) (v71 : FVec Ideal S1x1024 .f32) (q : Fin 1024) :
    k0_pay1 v16 v70 v71 (ix2 (0 : Fin 1) q)
      = v71 (ix2 (0 : Fin 1) q) + ∑ p : Fin 256, (v70 (ix2 p q) - v16 (ix2 p q)) := by
  unfold k0_pay1
  exact congrArg₂ (· + ·) (congrFun (shapeCast_self v71 _) _) (colsumH _ q)

/-! ## The first kernel -/

section tile0

variable (x0 : Vec Ideal S256x2048 .f32) (x1 : Vec Ideal S2048x1024 .bf16) (x2 : Vec Ideal S1024x2048 .bf16)
  (x3 : Vec Ideal S1x2048 .f32) (x4 : Vec Ideal S1x1024 .f32) (x5 x6 : Vec Ideal S256x1024 .f32) (x7 : Vec Ideal S256x2048 .f32)

/-- The hidden probabilities of row p. -/
theorem tile_Hp (p : Fin 256) (q : Fin 1024) :
    k0_pay9 x0 x1 x4 (ix2 p q) = hprob (W x1) (HB x4) (rowV x0 p) q := by
  unfold k0_pay9 hprob
  refine congrArg Ideal.logistic (congrArg₂ (· + ·) ?_ ?_)
  · rw [pay8_eq]; exact bcH x4 p q
  · rw [pay5_eq]; exact mmW _ x1 p q

/-- The first hidden sample of row p. -/
theorem tile_Hd (p : Fin 256) (q : Fin 1024) :
    k0_pay11 (k0_pay9 x0 x1 x4) x5 (ix2 p q) = hdat (W x1) (HB x4) (rowV x0 p) (rowH x5 p) q := by
  rw [pay11_apply, tile_Hp]
  rfl

/-- The visible sample of row p (before the change of format). -/
theorem tile_Vk (p : Fin 256) (j : Fin 2048) :
    k0_pay12 (k0_pay6 x2) (k0_pay7 x3) (k0_pay9 x0 x1 x4) x5 x7 (ix2 p j)
      = vsam (W x1) (WT x2) (VB x3) (HB x4) (rowV x0 p) (rowH x5 p) (rowV x7 p) j := by
  rw [pay12_apply, pay6_eq, pay7_eq]
  unfold vsam vprob
  exact congrArg (gt · _) (congrArg Ideal.logistic (congrArg (_ + ·)
    (Finset.sum_congr rfl fun h _ => by rw [tile_Hd])))

/-- The visible sample of row p as stored. -/
theorem tile_Vk' (p : Fin 256) (j : Fin 2048) :
    k0_pay13 (k0_pay6 x2) (k0_pay7 x3) (k0_pay9 x0 x1 x4) x5 x7 (ix2 p j)
      = vsam (W x1) (WT x2) (VB x3) (HB x4) (rowV x0 p) (rowH x5 p) (rowV x7 p) j :=
  tile_Vk x0 x1 x2 x3 x4 x5 x7 p j

/-- The second hidden sample of row p (before the change of format). -/
theorem tile_Hf (p : Fin 256) (q : Fin 1024) :
    k0_pay14 (k0_pay5 x1) (k0_pay6 x2) (k0_pay7 x3) (k0_pay8 x4) (k0_pay9 x0 x1 x4) x5 x7 x6 (ix2 p q)
      = hfin (W x1) (WT x2) (VB x3) (HB x4) (rowV x0 p) (rowH x5 p) (rowV x7 p) (rowH x6 p) q := by
  rw [pay14_apply, pay5_eq, pay8_eq]
  unfold hfin hprob
  exact congrArg (gt · _) (congrArg Ideal.logistic (congrArg (_ + ·)
    (Finset.sum_congr rfl fun k _ => by rw [tile_Vk'])))

/-- The second hidden sample of row p as stored. -/
theorem tile_Hf' (p : Fin 256) (q : Fin 1024) :
    k0_pay15 (k0_pay5 x1) (k0_pay6 x2) (k0_pay7 x3) (k0_pay8 x4) (k0_pay9 x0 x1 x4) x5 x7 x6 (ix2 p q)
      = hfin (W x1) (WT x2) (VB x3) (HB x4) (rowV x0 p) (rowH x5 p) (rowV x7 p) (rowH x6 p) q :=
  tile_Hf x0 x1 x2 x3 x4 x5 x6 x7 p q

/-- The visible-bias accumulator z grows by the tile's sum of (visible sample − batch entry). -/
theorem tile_Vb (z : Vec Ideal S1x2048 .f32) (j : Fin 2048) :
    k0_pay16 x0 (k0_pay6 x2) (k0_pay7 x3) (k0_pay9 x0 x1 x4) x5 x7 z (ix2 (0 : Fin 1) j)
      = z (ix2 (0 : Fin 1) j)
        + ∑ p : Fin 256, (vsam (W x1) (WT x2) (VB x3) (HB x4) (rowV x0 p) (rowH x5 p) (rowV x7 p) j - x0 (ix2 p j)) := by
  rw [pay16_apply]
  exact congrArg (_ + ·) (Finset.sum_congr rfl fun p _ => by rw [tile_Vk])

/-- The hidden-bias accumulator z grows by the tile's sum of (second hidden sample − hidden probability). -/
theorem tile_Hb (z : Vec Ideal S1x1024 .f32) (q : Fin 1024) :
    k0_pay1 (k0_pay9 x0 x1 x4)
        (k0_pay17 (k0_pay5 x1) (k0_pay6 x2) (k0_pay7 x3) (k0_pay8 x4) (k0_pay9 x0 x1 x4) x5 x7 x6) z (ix2 (0 : Fin 1) q)
      = z (ix2 (0 : Fin 1) q)
        + ∑ p : Fin 256, (hfin (W x1) (WT x2) (VB x3) (HB x4) (rowV x0 p) (rowH x5 p) (rowV x7 p) (rowH x6 p) q
            - hprob (W x1) (HB x4) (rowV x0 p) q) := by
  rw [pay1_apply]
  exact congrArg (_ + ·) (Finset.sum_congr rfl fun p _ =>
    congrArg₂ (· - ·) (tile_Hf x0 x1 x2 x3 x4 x5 x6 x7 p q) (tile_Hp x0 x1 x4 p q))

/-- The error accumulator z grows by the tile's sum of absolute reconstruction errors. -/
theorem tile_Re (z : Vec Ideal S1x1 .f32) :
    k0_pay10 x0 x1 x2 x3 x4 z (ix2 (0 : Fin 1) (0 : Fin 1))
      = z (ix2 (0 : Fin 1) (0 : Fin 1))
        + ∑ p : Fin 256, ∑ j : Fin 2048, aerr (W x1) (WT x2) (VB x3) (HB x4) (rowV x0 p) j := by
  unfold k0_pay10
  refine congrArg₂ (· + ·) (congrFun (shapeCast_self z _) _) ?_
  refine (totsum _).trans ?_
  refine Finset.sum_congr rfl fun p _ => Finset.sum_congr rfl fun j _ => ?_
  -- the reconstruction σ(bias + probabilities · transposed weights) at (p, j)
  have e : Ideal.logistic
        (broadcastTo S256x2048 (k0_pay7 x3) broadcasts_S1x2048_S256x2048 (ix2 p j)
          + matmul dot_S256x1024_S1024x2048_S256x2048_1_0_0_1_n_n none (truncf .bf16 (k0_pay9 x0 x1 x4) bitsLt_bf16_f32)
              (k0_pay6 x2) (constant S256x2048 .f32 0x00000000#32) (ix2 p j))
      = vprob (WT x2) (VB x3) (hprob (W x1) (HB x4) (rowV x0 p)) j := by
    unfold vprob
    refine congrArg Ideal.logistic (congrArg₂ (· + ·) ?_ ?_)
    · rw [pay7_eq]; exact bcV x3 p j
    · rw [pay6_eq]
      refine (mmWT _ x2 p j).trans (Finset.sum_congr rfl fun h _ => ?_)
      exact congrArg (· * _) (tile_Hp x0 x1 x4 p h)
  unfold aerr
  exact congrArg (fun t => max (x0 (ix2 p j) - t) (-(x0 (ix2 p j) - t))) e

end tile0

/-- The three accumulators are reset to zero. -/
theorem zero_Vb (j : Fin 2048) : k0_pay2 (F := Ideal) (ix2 (0 : Fin 1) j) = 0 :=
  Ideal.ofBits_zero_f32
theorem zero_Hb (q : Fin 1024) : k0_pay3 (F := Ideal) (ix2 (0 : Fin 1) q) = 0 :=
  Ideal.ofBits_zero_f32
theorem zero_Re : k0_pay4 (F := Ideal) (ix2 (0 : Fin 1) (0 : Fin 1)) = 0 :=
  Ideal.ofBits_zero_f32

end Cert.KernelIdeal.Pay

end
-- ==== Proof.Points0.lean ====
/- What the first kernel leaves in its staging buffers after each grid point, in the specification's terms.

   Grid point t works on tile t: rows 256·t … 256·t + 255 of the batch and of the three arrays of draws, and the
   whole weights, transposed weights and biases. Each block the kernel reads is its array read at those rows, so
   the body's arithmetic of the blocks is the specification's row functions of the batch's rows. The four row-wise
   outputs hold those values for the tile's rows; each accumulator holds the tile's sum at the first point, and what
   the point before left plus the tile's sum afterwards. -/
import proofs.«102447_j17806934409607_1_alg».proof.Proof.Spec
import proofs.«102447_j17806934409607_1_alg».proof.Proof.Pieces
import proofs.«102447_j17806934409607_1_alg».proof.Proof.Pay
import proofs.«102447_j17806934409607_1_alg».proof.Proof.Gen.KernelIdeal.Frame
import Idealize.ShloMosaic.Lib.Pipeline.Value

noncomputable section

namespace Cert.KernelIdeal.Points0

open Cert.KernelIdeal Cert.KernelIdeal.Gen Cert.Rbm
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The inputs as the first kernel finds them: the batch, the weights and their transpose (two arrays of their
    own here), the two biases as [1, n] rows, the three arrays of draws. -/
def inp (c : Dev nD) : Inp where
  v b j := V c main_arg0 (ix2 b j)
  w k h := V c main_v0 (ix2 k h)
  wt h j := V c main_v2 (ix2 h j)
  vb j := V c main_v3 (ix2 (0 : Fin 1) j)
  hb h := V c main_v4 (ix2 (0 : Fin 1) h)
  u0 b h := V c main_v6 (ix2 b h)
  u1 b h := V c main_v8 (ix2 b h)
  uv b j := V c main_v9 (ix2 b j)

/-- The tile a grid point works on. -/
def tile (t : Fin cfg0.N) : Fin 32 := ⟨t.val, lt_of_lt_of_eq t.isLt (show cfg0.N = 32 from N_0)⟩

/-- One tile's contribution to the visible-bias gradient, the hidden-bias gradient and the summed error. -/
def tVb (I : Inp) (t : Fin 32) (j : Fin 2048) : EReal := ∑ p : Fin 256, (I.Vk (row t p) j - I.v (row t p) j)
def tHb (I : Inp) (t : Fin 32) (h : Fin 1024) : EReal := ∑ p : Fin 256, (I.Hf (row t p) h - I.Hp (row t p) h)
def tRe (I : Inp) (t : Fin 32) : EReal := ∑ p : Fin 256, ∑ j : Fin 2048, I.Ae (row t p) j

/-! ## The blocks a grid point reads, as the arrays read at the tile's rows -/

/-- A row block of the batch: row p of tile t's block is row 256·t + p of the array. -/
private theorem blk0_apply (c : Dev nD) (t : Fin cfg0.N) (p : Fin 256) (k : Fin 2048) :
    (iblk0 V c 0 t : Vec Ideal S256x2048 .f32) (ix2 p k) = (V c main_arg0 : Vec Ideal S8192x2048 .f32) (ix2 (row (tile t) p) k) := by
  unfold iblk0
  rw [View.read_apply]
  show V c main_arg0 (((cfg0.win 0).blk t).view.emb (ix2 p k)) = V c main_arg0 (ix2 (row (tile t) p) k)
  congr 1
  funext a
  apply Fin.ext
  have hi := (by decide +kernel : ∀ t : Fin grid0.N, win0_0.index t 0 = t.val ∧ win0_0.index t 1 = 0) t
  match a with
  | ⟨0, _⟩ => show win0_0.index t 0 * 256 + 1 * p.val = 256 * t.val + p.val; rw [hi.1]; omega
  | ⟨1, _⟩ => show win0_0.index t 1 * 2048 + 1 * k.val = k.val; rw [hi.2]; omega

/-- A row block of the first array of hidden draws. -/
private theorem blk5_apply (c : Dev nD) (t : Fin cfg0.N) (p : Fin 256) (k : Fin 1024) :
    (iblk0 V c 5 t : Vec Ideal S256x1024 .f32) (ix2 p k) = (V c main_v6 : Vec Ideal S8192x1024 .f32) (ix2 (row (tile t) p) k) := by
  unfold iblk0
  rw [View.read_apply]
  show V c main_v6 (((cfg0.win 5).blk t).view.emb (ix2 p k)) = V c main_v6 (ix2 (row (tile t) p) k)
  congr 1
  funext a
  apply Fin.ext
  have hi := (by decide +kernel : ∀ t : Fin grid0.N, win0_5.index t 0 = t.val ∧ win0_5.index t 1 = 0) t
  match a with
  | ⟨0, _⟩ => show win0_5.index t 0 * 256 + 1 * p.val = 256 * t.val + p.val; rw [hi.1]; omega
  | ⟨1, _⟩ => show win0_5.index t 1 * 1024 + 1 * k.val = k.val; rw [hi.2]; omega

/-- A row block of the second array of hidden draws. -/
private theorem blk6_apply (c : Dev nD) (t : Fin cfg0.N) (p : Fin 256) (k : Fin 1024) :
    (iblk0 V c 6 t : Vec Ideal S256x1024 .f32) (ix2 p k) = (V c main_v8 : Vec Ideal S8192x1024 .f32) (ix2 (row (tile t) p) k) := by
  unfold iblk0
  rw [View.read_apply]
  show V c main_v8 (((cfg0.win 6).blk t).view.emb (ix2 p k)) = V c main_v8 (ix2 (row (tile t) p) k)
  congr 1
  funext a
  apply Fin.ext
  have hi := (by decide +kernel : ∀ t : Fin grid0.N, win0_6.index t 0 = t.val ∧ win0_6.index t 1 = 0) t
  match a with
  | ⟨0, _⟩ => show win0_6.index t 0 * 256 + 1 * p.val = 256 * t.val + p.val; rw [hi.1]; omega
  | ⟨1, _⟩ => show win0_6.index t 1 * 1024 + 1 * k.val = k.val; rw [hi.2]; omega

/-- A row block of the array of visible draws. -/
private theorem blk7_apply (c : Dev nD) (t : Fin cfg0.N) (p : Fin 256) (k : Fin 2048) :
    (iblk0 V c 7 t : Vec Ideal S256x2048 .f32) (ix2 p k) = (V c main_v9 : Vec Ideal S8192x2048 .f32) (ix2 (row (tile t) p) k) := by
  unfold iblk0
  rw [View.read_apply]
  show V c main_v9 (((cfg0.win 7).blk t).view.emb (ix2 p k)) = V c main_v9 (ix2 (row (tile t) p) k)
  congr 1
  funext a
  apply Fin.ext
  have hi := (by decide +kernel : ∀ t : Fin grid0.N, win0_7.index t 0 = t.val ∧ win0_7.index t 1 = 0) t
  match a with
  | ⟨0, _⟩ => show win0_7.index t 0 * 256 + 1 * p.val = 256 * t.val + p.val; rw [hi.1]; omega
  | ⟨1, _⟩ => show win0_7.index t 1 * 2048 + 1 * k.val = k.val; rw [hi.2]; omega

/-- The weights' block is the whole array at every point. -/
private theorem blk1_apply (c : Dev nD) (t : Fin cfg0.N) (k : Fin 2048) (h : Fin 1024) :
    (iblk0 V c 1 t : Vec Ideal S2048x1024 .bf16) (ix2 k h) = (V c main_v0 : Vec Ideal S2048x1024 .bf16) (ix2 k h) := by
  unfold iblk0
  rw [View.read_apply]
  show V c main_v0 (((cfg0.win 1).blk t).view.emb (ix2 k h)) = V c main_v0 (ix2 k h)
  congr 1
  funext a
  apply Fin.ext
  have hi := (by decide +kernel : ∀ t : Fin grid0.N, win0_1.index t 0 = 0 ∧ win0_1.index t 1 = 0) t
  match a with
  | ⟨0, _⟩ => show win0_1.index t 0 * 2048 + 1 * k.val = k.val; rw [hi.1]; omega
  | ⟨1, _⟩ => show win0_1.index t 1 * 1024 + 1 * h.val = h.val; rw [hi.2]; omega

/-- The transposed weights' block is the whole array at every point. -/
private theorem blk2_apply (c : Dev nD) (t : Fin cfg0.N) (h : Fin 1024) (j : Fin 2048) :
    (iblk0 V c 2 t : Vec Ideal S1024x2048 .bf16) (ix2 h j) = (V c main_v2 : Vec Ideal S1024x2048 .bf16) (ix2 h j) := by
  unfold iblk0
  rw [View.read_apply]
  show V c main_v2 (((cfg0.win 2).blk t).view.emb (ix2 h j)) = V c main_v2 (ix2 h j)
  congr 1
  funext a
  apply Fin.ext
  have hi := (by decide +kernel : ∀ t : Fin grid0.N, win0_2.index t 0 = 0 ∧ win0_2.index t 1 = 0) t
  match a with
  | ⟨0, _⟩ => show win0_2.index t 0 * 1024 + 1 * h.val = h.val; rw [hi.1]; omega
  | ⟨1, _⟩ => show win0_2.index t 1 * 2048 + 1 * j.val = j.val; rw [hi.2]; omega

/-- The visible bias's block is the whole row at every point. -/
private theorem blk3_apply (c : Dev nD) (t : Fin cfg0.N) (z : Fin 1) (j : Fin 2048) :
    (iblk0 V c 3 t : Vec Ideal S1x2048 .f32) (ix2 z j) = (V c main_v3 : Vec Ideal S1x2048 .f32) (ix2 z j) := by
  unfold iblk0
  rw [View.read_apply]
  show V c main_v3 (((cfg0.win 3).blk t).view.emb (ix2 z j)) = V c main_v3 (ix2 z j)
  congr 1
  funext a
  apply Fin.ext
  have hi := (by decide +kernel : ∀ t : Fin grid0.N, win0_3.index t 0 = 0 ∧ win0_3.index t 1 = 0) t
  match a with
  | ⟨0, _⟩ => show win0_3.index t 0 * 1 + 1 * z.val = z.val; rw [hi.1]; omega
  | ⟨1, _⟩ => show win0_3.index t 1 * 2048 + 1 * j.val = j.val; rw [hi.2]; omega

/-- The hidden bias's block is the whole row at every point. -/
private theorem blk4_apply (c : Dev nD) (t : Fin cfg0.N) (z : Fin 1) (h : Fin 1024) :
    (iblk0 V c 4 t : Vec Ideal S1x1024 .f32) (ix2 z h) = (V c main_v4 : Vec Ideal S1x1024 .f32) (ix2 z h) := by
  unfold iblk0
  rw [View.read_apply]
  show V c main_v4 (((cfg0.win 4).blk t).view.emb (ix2 z h)) = V c main_v4 (ix2 z h)
  congr 1
  funext a
  apply Fin.ext
  have hi := (by decide +kernel : ∀ t : Fin grid0.N, win0_4.index t 0 = 0 ∧ win0_4.index t 1 = 0) t
  match a with
  | ⟨0, _⟩ => show win0_4.index t 0 * 1 + 1 * z.val = z.val; rw [hi.1]; omega
  | ⟨1, _⟩ => show win0_4.index t 1 * 1024 + 1 * h.val = h.val; rw [hi.2]; omega

/-! ## What a tile sees is the specification's inputs at the tile's rows -/

private theorem W_blk (c : Dev nD) (t : Fin cfg0.N) : Pay.W (iblk0 V c 1 t) = (inp V c).w :=
  funext fun k => funext fun h => blk1_apply V c t k h
private theorem WT_blk (c : Dev nD) (t : Fin cfg0.N) : Pay.WT (iblk0 V c 2 t) = (inp V c).wt :=
  funext fun h => funext fun j => blk2_apply V c t h j
private theorem VB_blk (c : Dev nD) (t : Fin cfg0.N) : Pay.VB (iblk0 V c 3 t) = (inp V c).vb :=
  funext fun j => blk3_apply V c t 0 j
private theorem HB_blk (c : Dev nD) (t : Fin cfg0.N) : Pay.HB (iblk0 V c 4 t) = (inp V c).hb :=
  funext fun h => blk4_apply V c t 0 h
private theorem rowV_blk0 (c : Dev nD) (t : Fin cfg0.N) (p : Fin 256) : Pay.rowV (iblk0 V c 0 t) p = (inp V c).v (row (tile t) p) :=
  funext fun j => blk0_apply V c t p j
private theorem rowH_blk5 (c : Dev nD) (t : Fin cfg0.N) (p : Fin 256) : Pay.rowH (iblk0 V c 5 t) p = (inp V c).u0 (row (tile t) p) :=
  funext fun h => blk5_apply V c t p h
private theorem rowH_blk6 (c : Dev nD) (t : Fin cfg0.N) (p : Fin 256) : Pay.rowH (iblk0 V c 6 t) p = (inp V c).u1 (row (tile t) p) :=
  funext fun h => blk6_apply V c t p h
private theorem rowV_blk7 (c : Dev nD) (t : Fin cfg0.N) (p : Fin 256) : Pay.rowV (iblk0 V c 7 t) p = (inp V c).uv (row (tile t) p) :=
  funext fun j => blk7_apply V c t p j

/-! ## The body's arithmetic of a point's blocks is the specification's row functions of the tile's rows -/

private theorem hp_tile (c : Dev nD) (t : Fin cfg0.N) (p : Fin 256) (q : Fin 1024) :
    k0_pay9 (iblk0 V c 0 t) (iblk0 V c 1 t) (iblk0 V c 4 t) (ix2 p q) = (inp V c).Hp (row (tile t) p) q := by
  refine (Pay.tile_Hp (iblk0 V c 0 t) (iblk0 V c 1 t) (iblk0 V c 4 t) p q).trans ?_
  rw [W_blk, HB_blk, rowV_blk0]
  rfl

private theorem hd_tile (c : Dev nD) (t : Fin cfg0.N) (p : Fin 256) (q : Fin 1024) :
    k0_pay11 (k0_pay9 (iblk0 V c 0 t) (iblk0 V c 1 t) (iblk0 V c 4 t)) (iblk0 V c 5 t) (ix2 p q) = (inp V c).Hd (row (tile t) p) q := by
  refine (Pay.tile_Hd (iblk0 V c 0 t) (iblk0 V c 1 t) (iblk0 V c 4 t) (iblk0 V c 5 t) p q).trans ?_
  rw [W_blk, HB_blk, rowV_blk0, rowH_blk5]
  rfl

private theorem vk_tile (c : Dev nD) (t : Fin cfg0.N) (p : Fin 256) (j : Fin 2048) :
    k0_pay13 (k0_pay6 (iblk0 V c 2 t)) (k0_pay7 (iblk0 V c 3 t)) (k0_pay9 (iblk0 V c 0 t) (iblk0 V c 1 t) (iblk0 V c 4 t)) (iblk0 V c 5 t) (iblk0 V c 7 t) (ix2 p j)
      = (inp V c).Vk (row (tile t) p) j := by
  refine (Pay.tile_Vk' (iblk0 V c 0 t) (iblk0 V c 1 t) (iblk0 V c 2 t) (iblk0 V c 3 t) (iblk0 V c 4 t) (iblk0 V c 5 t) (iblk0 V c 7 t) p j).trans ?_
  rw [W_blk, WT_blk, VB_blk, HB_blk, rowV_blk0, rowH_blk5, rowV_blk7]
  rfl

private theorem hf_tile (c : Dev nD) (t : Fin cfg0.N) (p : Fin 256) (q : Fin 1024) :
    k0_pay15 (k0_pay5 (iblk0 V c 1 t)) (k0_pay6 (iblk0 V c 2 t)) (k0_pay7 (iblk0 V c 3 t)) (k0_pay8 (iblk0 V c 4 t)) (k0_pay9 (iblk0 V c 0 t) (iblk0 V c 1 t) (iblk0 V c 4 t)) (iblk0 V c 5 t) (iblk0 V c 7 t) (iblk0 V c 6 t) (ix2 p q)
      = (inp V c).Hf (row (tile t) p) q := by
  refine (Pay.tile_Hf' (iblk0 V c 0 t) (iblk0 V c 1 t) (iblk0 V c 2 t) (iblk0 V c 3 t) (iblk0 V c 4 t) (iblk0 V c 5 t) (iblk0 V c 6 t) (iblk0 V c 7 t) p q).trans ?_
  rw [W_blk, WT_blk, VB_blk, HB_blk, rowV_blk0, rowH_blk5, rowH_blk6, rowV_blk7]
  rfl

private theorem vb_tile (c : Dev nD) (t : Fin cfg0.N) (z : Vec Ideal S1x2048 .f32) (j : Fin 2048) :
    k0_pay16 (iblk0 V c 0 t) (k0_pay6 (iblk0 V c 2 t)) (k0_pay7 (iblk0 V c 3 t)) (k0_pay9 (iblk0 V c 0 t) (iblk0 V c 1 t) (iblk0 V c 4 t)) (iblk0 V c 5 t) (iblk0 V c 7 t) z (ix2 (0 : Fin 1) j)
      = z (ix2 (0 : Fin 1) j) + tVb (inp V c) (tile t) j := by
  refine (Pay.tile_Vb (iblk0 V c 0 t) (iblk0 V c 1 t) (iblk0 V c 2 t) (iblk0 V c 3 t) (iblk0 V c 4 t) (iblk0 V c 5 t) (iblk0 V c 7 t) z j).trans ?_
  unfold tVb
  refine congrArg (z (ix2 (0 : Fin 1) j) + ·) (Finset.sum_congr rfl fun p _ => ?_)
  rw [W_blk, WT_blk, VB_blk, HB_blk, rowV_blk0, rowH_blk5, rowV_blk7]
  exact congrArg (_ - ·) (blk0_apply V c t p j)

private theorem hb_tile (c : Dev nD) (t : Fin cfg0.N) (z : Vec Ideal S1x1024 .f32) (h : Fin 1024) :
    k0_pay1 (k0_pay9 (iblk0 V c 0 t) (iblk0 V c 1 t) (iblk0 V c 4 t))
        (k0_pay17 (k0_pay5 (iblk0 V c 1 t)) (k0_pay6 (iblk0 V c 2 t)) (k0_pay7 (iblk0 V c 3 t)) (k0_pay8 (iblk0 V c 4 t)) (k0_pay9 (iblk0 V c 0 t) (iblk0 V c 1 t) (iblk0 V c 4 t)) (iblk0 V c 5 t) (iblk0 V c 7 t) (iblk0 V c 6 t)) z (ix2 (0 : Fin 1) h)
      = z (ix2 (0 : Fin 1) h) + tHb (inp V c) (tile t) h := by
  refine (Pay.tile_Hb (iblk0 V c 0 t) (iblk0 V c 1 t) (iblk0 V c 2 t) (iblk0 V c 3 t) (iblk0 V c 4 t) (iblk0 V c 5 t) (iblk0 V c 6 t) (iblk0 V c 7 t) z h).trans ?_
  unfold tHb
  refine congrArg (z (ix2 (0 : Fin 1) h) + ·) (Finset.sum_congr rfl fun p _ => ?_)
  rw [W_blk, WT_blk, VB_blk, HB_blk, rowV_blk0, rowH_blk5, rowH_blk6, rowV_blk7]
  rfl

private theorem re_tile (c : Dev nD) (t : Fin cfg0.N) (z : Vec Ideal S1x1 .f32) :
    k0_pay10 (iblk0 V c 0 t) (iblk0 V c 1 t) (iblk0 V c 2 t) (iblk0 V c 3 t) (iblk0 V c 4 t) z (ix2 (0 : Fin 1) (0 : Fin 1))
      = z (ix2 (0 : Fin 1) (0 : Fin 1)) + tRe (inp V c) (tile t) := by
  refine (Pay.tile_Re (iblk0 V c 0 t) (iblk0 V c 1 t) (iblk0 V c 2 t) (iblk0 V c 3 t) (iblk0 V c 4 t) z).trans ?_
  unfold tRe
  refine congrArg (z (ix2 (0 : Fin 1) (0 : Fin 1)) + ·) (Finset.sum_congr rfl fun p _ => Finset.sum_congr rfl fun j _ => ?_)
  rw [W_blk, WT_blk, VB_blk, HB_blk, rowV_blk0]
  rfl

/-! ## The four row-wise outputs after point t -/

theorem pt_Hp (c : Dev nD) (t : Fin cfg0.N) (p : Fin 256) (q : Fin 1024) :
    (outsAt0 V c t.val t.isLt).1 (ix2 p q) = (inp V c).Hp (row (tile t) p) q := by
  by_cases h0 : t.val % 32 = 0
  · rw [outsAt0_A V c t h0]
    dsimp only
    exact (congrFun (Pieces.out0_A_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 p q)).trans (hp_tile V c t p q)
  · rw [outsAt0_B V c t h0]
    dsimp only
    exact (congrFun (Pieces.out0_B_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 p q)).trans (hp_tile V c t p q)

theorem pt_Hd (c : Dev nD) (t : Fin cfg0.N) (p : Fin 256) (q : Fin 1024) :
    (outsAt0 V c t.val t.isLt).2.1 (ix2 p q) = (inp V c).Hd (row (tile t) p) q := by
  by_cases h0 : t.val % 32 = 0
  · rw [outsAt0_A V c t h0]
    dsimp only
    exact (congrFun (Pieces.out0_A_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 p q)).trans (hd_tile V c t p q)
  · rw [outsAt0_B V c t h0]
    dsimp only
    exact (congrFun (Pieces.out0_B_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 p q)).trans (hd_tile V c t p q)

theorem pt_Vk (c : Dev nD) (t : Fin cfg0.N) (p : Fin 256) (j : Fin 2048) :
    (outsAt0 V c t.val t.isLt).2.2.1 (ix2 p j) = (inp V c).Vk (row (tile t) p) j := by
  by_cases h0 : t.val % 32 = 0
  · rw [outsAt0_A V c t h0]
    dsimp only
    exact (congrFun (Pieces.out0_A_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 p j)).trans (vk_tile V c t p j)
  · rw [outsAt0_B V c t h0]
    dsimp only
    exact (congrFun (Pieces.out0_B_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 p j)).trans (vk_tile V c t p j)

theorem pt_Hf (c : Dev nD) (t : Fin cfg0.N) (p : Fin 256) (q : Fin 1024) :
    (outsAt0 V c t.val t.isLt).2.2.2.1 (ix2 p q) = (inp V c).Hf (row (tile t) p) q := by
  by_cases h0 : t.val % 32 = 0
  · rw [outsAt0_A V c t h0]
    dsimp only
    exact (congrFun (Pieces.out0_A_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 p q)).trans (hf_tile V c t p q)
  · rw [outsAt0_B V c t h0]
    dsimp only
    exact (congrFun (Pieces.out0_B_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 p q)).trans (hf_tile V c t p q)

/-! ## The three accumulators after point t: the first point, and every later one -/

theorem pt_Vb_first (c : Dev nD) (t : Fin cfg0.N) (h0 : t.val % 32 = 0) (j : Fin 2048) :
    (outsAt0 V c t.val t.isLt).2.2.2.2.1 (ix2 (0 : Fin 1) j) = 0 + tVb (inp V c) (tile t) j := by
  rw [outsAt0_A V c t h0]
  dsimp only
  refine (congrFun (Pieces.out0_A_12_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 (0 : Fin 1) j)).trans ?_
  refine (vb_tile V c t _ j).trans ?_
  rw [Pay.zero_Vb]

theorem pt_Vb_next (c : Dev nD) (t : Fin cfg0.N) (h0 : ¬t.val % 32 = 0) (j : Fin 2048) :
    (outsAt0 V c t.val t.isLt).2.2.2.2.1 (ix2 (0 : Fin 1) j)
      = (outsAt0 V c (t.val - 1) (Nat.lt_of_le_of_lt (Nat.sub_le _ _) t.isLt)).2.2.2.2.1 (ix2 (0 : Fin 1) j)
        + tVb (inp V c) (tile t) j := by
  rw [outsAt0_B V c t h0]
  dsimp only
  exact (congrFun (Pieces.out0_B_12_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 (0 : Fin 1) j)).trans (vb_tile V c t _ j)

theorem pt_Hb_first (c : Dev nD) (t : Fin cfg0.N) (h0 : t.val % 32 = 0) (h : Fin 1024) :
    (outsAt0 V c t.val t.isLt).2.2.2.2.2.1 (ix2 (0 : Fin 1) h) = 0 + tHb (inp V c) (tile t) h := by
  rw [outsAt0_A V c t h0]
  dsimp only
  refine (congrFun (Pieces.out0_A_13_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 (0 : Fin 1) h)).trans ?_
  refine (hb_tile V c t _ h).trans ?_
  rw [Pay.zero_Hb]

theorem pt_Hb_next (c : Dev nD) (t : Fin cfg0.N) (h0 : ¬t.val % 32 = 0) (h : Fin 1024) :
    (outsAt0 V c t.val t.isLt).2.2.2.2.2.1 (ix2 (0 : Fin 1) h)
      = (outsAt0 V c (t.val - 1) (Nat.lt_of_le_of_lt (Nat.sub_le _ _) t.isLt)).2.2.2.2.2.1 (ix2 (0 : Fin 1) h)
        + tHb (inp V c) (tile t) h := by
  rw [outsAt0_B V c t h0]
  dsimp only
  exact (congrFun (Pieces.out0_B_13_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 (0 : Fin 1) h)).trans (hb_tile V c t _ h)

theorem pt_Re_first (c : Dev nD) (t : Fin cfg0.N) (h0 : t.val % 32 = 0) :
    (outsAt0 V c t.val t.isLt).2.2.2.2.2.2 (ix2 (0 : Fin 1) (0 : Fin 1)) = 0 + tRe (inp V c) (tile t) := by
  rw [outsAt0_A V c t h0]
  dsimp only
  refine (congrFun (Pieces.out0_A_14_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t)) (ix2 (0 : Fin 1) (0 : Fin 1))).trans ?_
  refine (re_tile V c t _).trans ?_
  rw [Pay.zero_Re]

theorem pt_Re_next (c : Dev nD) (t : Fin cfg0.N) (h0 : ¬t.val % 32 = 0) :
    (outsAt0 V c t.val t.isLt).2.2.2.2.2.2 (ix2 (0 : Fin 1) (0 : Fin 1))
      = (outsAt0 V c (t.val - 1) (Nat.lt_of_le_of_lt (Nat.sub_le _ _) t.isLt)).2.2.2.2.2.2 (ix2 (0 : Fin 1) (0 : Fin 1))
        + tRe (inp V c) (tile t) := by
  rw [outsAt0_B V c t h0]
  dsimp only
  exact (congrFun (Pieces.out0_B_14_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun hh => h0 ((hcond0_0 t).mp hh)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) (ix2 (0 : Fin 1) (0 : Fin 1))).trans (re_tile V c t _)

end Cert.KernelIdeal.Points0

end
-- ==== Proof.Region0.lean ====
/- The first kernel's four row-wise result arrays, as functions of the arrays it is entered with.

   Each of the four (hidden probabilities, first hidden sample, visible sample, second hidden sample) is written
   tile by tile: grid point t writes rows 256·t … 256·t + 255, each block holding the specification's row functions
   of its own rows, and the 32 blocks tile the array; so the array ends holding those row functions of every row. -/
import proofs.«102447_j17806934409607_1_alg».proof.Proof.Spec
import proofs.«102447_j17806934409607_1_alg».proof.Proof.Points0
import proofs.«102447_j17806934409607_1_alg».proof.Proof.Gen.KernelIdeal.Frame
import Idealize.ShloMosaic.Lib.Pipeline.Value

noncomputable section

namespace Cert.KernelIdeal.Region0

open Cert.KernelIdeal Cert.KernelIdeal.Gen Cert.Rbm
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

open Cert.KernelIdeal.Points0

/-! ## Window 8 -/

/-- Grid point t's block of window 8 is block row t, block column 0. -/
private theorem idx8 : ∀ t : Fin cfg0.N, win0_8.index t (0 : Fin 2) = t.val ∧ win0_8.index t (1 : Fin 2) = 0 :=
  (by decide +kernel : ∀ t : Fin grid0.N, _)

/-- What point t writes back is its block of the row functions: rows 256·t … 256·t + 255, every column. -/
private theorem flushed8 (c : Dev nD) (t : Fin cfg0.N) :
    (dat0 V c).flushed 8 t = ((cfg0.win 8).blk t).view.read (Elt Ideal) (resHp (inp V c)) := by
  show (cfg0.win 8).cut (grid0.coords t) ((dat0 V c).after 8 t) = _
  rw [after0_8]
  funext y
  obtain ⟨e0, e1⟩ := idx8 t
  have hy0 : (y 0).val < 256 := (y 0).isLt
  have hy1 : (y 1).val < 1024 := (y 1).isLt
  have hl : (cfg0.win 8).cut (grid0.coords t) (outsAt0 V c t.val t.isLt).1 y
      = (outsAt0 V c t.val t.isLt).1 (ix2 (⟨(y 0).val, hy0⟩ : Fin 256) (⟨(y 1).val, hy1⟩ : Fin 1024)) :=
    congrArg (outsAt0 V c t.val t.isLt).1 (funext fun a => match a with | ⟨0, _⟩ => rfl | ⟨1, _⟩ => rfl)
  rw [hl, pt_Hp]
  show _ = resHp (inp V c) (((cfg0.win 8).blk t).view.emb y)
  unfold resHp
  -- the block's entry (y₀, y₁) sits at row (block row) · 256 + y₀ and column (block column) · 1024 + y₁ of the array
  have h0 : (((cfg0.win 8).blk t).view.emb y 0).val = win0_8.index t (0 : Fin 2) * 256 + 1 * (y 0).val := rfl
  have h1 : (((cfg0.win 8).blk t).view.emb y 1).val = win0_8.index t (1 : Fin 2) * 1024 + 1 * (y 1).val := rfl
  refine congrArg₂ _ (Fin.ext ?_) (Fin.ext ?_)
  · show 256 * t.val + (y 0).val = _
    rw [h0, e0]; omega
  · show (y 1).val = _
    rw [h1, e1]; omega

/-- An index of the array is in point t's block iff each coordinate is in the block's range on its axis. -/
private theorem mem_blk8 (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v10_0).slice (win0_8.rect t)).set ↔ _
  rw [View.set_slice_whole, Rect.mem_set_unit]
  exact Iff.rfl

/-- Every index of the array lies in the block of the point its row falls to. -/
private theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 256 < cfg0.N := lt_of_lt_of_eq (by omega : (i 0).val / 256 < 32) (show cfg0.N = 32 from N_0).symm
  obtain ⟨e0, e1⟩ := idx8 ⟨(i 0).val / 256, hN⟩
  refine ⟨⟨(i 0).val / 256, hN⟩, flush0_8 _, ?_⟩
  rw [mem_blk8]
  intro a
  match a with
  | ⟨0, _⟩ =>
    show win0_8.index ⟨(i 0).val / 256, hN⟩ (0 : Fin 2) * 256 ≤ (i 0).val
      ∧ (i 0).val < win0_8.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, hN⟩ (1 : Fin 2) * 1024 ≤ (i 1).val
      ∧ (i 1).val < win0_8.index ⟨(i 0).val / 256, hN⟩ (1 : Fin 2) * 1024 + 1024
    rw [e1]; omega

/-! ## Window 9 -/

/-- Grid point t's block of window 9 is block row t, block column 0. -/
private theorem idx9 : ∀ t : Fin cfg0.N, win0_9.index t (0 : Fin 2) = t.val ∧ win0_9.index t (1 : Fin 2) = 0 :=
  (by decide +kernel : ∀ t : Fin grid0.N, _)

/-- What point t writes back is its block of the row functions: rows 256·t … 256·t + 255, every column. -/
private theorem flushed9 (c : Dev nD) (t : Fin cfg0.N) :
    (dat0 V c).flushed 9 t = ((cfg0.win 9).blk t).view.read (Elt Ideal) (resHd (inp V c)) := by
  show (cfg0.win 9).cut (grid0.coords t) ((dat0 V c).after 9 t) = _
  rw [after0_9]
  funext y
  obtain ⟨e0, e1⟩ := idx9 t
  have hy0 : (y 0).val < 256 := (y 0).isLt
  have hy1 : (y 1).val < 1024 := (y 1).isLt
  have hl : (cfg0.win 9).cut (grid0.coords t) (outsAt0 V c t.val t.isLt).2.1 y
      = (outsAt0 V c t.val t.isLt).2.1 (ix2 (⟨(y 0).val, hy0⟩ : Fin 256) (⟨(y 1).val, hy1⟩ : Fin 1024)) :=
    congrArg (outsAt0 V c t.val t.isLt).2.1 (funext fun a => match a with | ⟨0, _⟩ => rfl | ⟨1, _⟩ => rfl)
  rw [hl, pt_Hd]
  show _ = resHd (inp V c) (((cfg0.win 9).blk t).view.emb y)
  unfold resHd
  -- the block's entry (y₀, y₁) sits at row (block row) · 256 + y₀ and column (block column) · 1024 + y₁ of the array
  have h0 : (((cfg0.win 9).blk t).view.emb y 0).val = win0_9.index t (0 : Fin 2) * 256 + 1 * (y 0).val := rfl
  have h1 : (((cfg0.win 9).blk t).view.emb y 1).val = win0_9.index t (1 : Fin 2) * 1024 + 1 * (y 1).val := rfl
  refine congrArg₂ _ (Fin.ext ?_) (Fin.ext ?_)
  · show 256 * t.val + (y 0).val = _
    rw [h0, e0]; omega
  · show (y 1).val = _
    rw [h1, e1]; omega

/-- An index of the array is in point t's block iff each coordinate is in the block's range on its axis. -/
private theorem mem_blk9 (t : Fin cfg0.N) (i : S8192x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v10_1).slice (win0_9.rect t)).set ↔ _
  rw [View.set_slice_whole, Rect.mem_set_unit]
  exact Iff.rfl

/-- Every index of the array lies in the block of the point its row falls to. -/
private theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 256 < cfg0.N := lt_of_lt_of_eq (by omega : (i 0).val / 256 < 32) (show cfg0.N = 32 from N_0).symm
  obtain ⟨e0, e1⟩ := idx9 ⟨(i 0).val / 256, hN⟩
  refine ⟨⟨(i 0).val / 256, hN⟩, flush0_9 _, ?_⟩
  rw [mem_blk9]
  intro a
  match a with
  | ⟨0, _⟩ =>
    show win0_9.index ⟨(i 0).val / 256, hN⟩ (0 : Fin 2) * 256 ≤ (i 0).val
      ∧ (i 0).val < win0_9.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, hN⟩ (1 : Fin 2) * 1024 ≤ (i 1).val
      ∧ (i 1).val < win0_9.index ⟨(i 0).val / 256, hN⟩ (1 : Fin 2) * 1024 + 1024
    rw [e1]; omega

/-! ## Window 10 -/

/-- Grid point t's block of window 10 is block row t, block column 0. -/
private theorem idx10 : ∀ t : Fin cfg0.N, win0_10.index t (0 : Fin 2) = t.val ∧ win0_10.index t (1 : Fin 2) = 0 :=
  (by decide +kernel : ∀ t : Fin grid0.N, _)

/-- What point t writes back is its block of the row functions: rows 256·t … 256·t + 255, every column. -/
private theorem flushed10 (c : Dev nD) (t : Fin cfg0.N) :
    (dat0 V c).flushed 10 t = ((cfg0.win 10).blk t).view.read (Elt Ideal) (resVk (inp V c)) := by
  show (cfg0.win 10).cut (grid0.coords t) ((dat0 V c).after 10 t) = _
  rw [after0_10]
  funext y
  obtain ⟨e0, e1⟩ := idx10 t
  have hy0 : (y 0).val < 256 := (y 0).isLt
  have hy1 : (y 1).val < 2048 := (y 1).isLt
  have hl : (cfg0.win 10).cut (grid0.coords t) (outsAt0 V c t.val t.isLt).2.2.1 y
      = (outsAt0 V c t.val t.isLt).2.2.1 (ix2 (⟨(y 0).val, hy0⟩ : Fin 256) (⟨(y 1).val, hy1⟩ : Fin 2048)) :=
    congrArg (outsAt0 V c t.val t.isLt).2.2.1 (funext fun a => match a with | ⟨0, _⟩ => rfl | ⟨1, _⟩ => rfl)
  rw [hl, pt_Vk]
  show _ = resVk (inp V c) (((cfg0.win 10).blk t).view.emb y)
  unfold resVk
  -- the block's entry (y₀, y₁) sits at row (block row) · 256 + y₀ and column (block column) · 2048 + y₁ of the array
  have h0 : (((cfg0.win 10).blk t).view.emb y 0).val = win0_10.index t (0 : Fin 2) * 256 + 1 * (y 0).val := rfl
  have h1 : (((cfg0.win 10).blk t).view.emb y 1).val = win0_10.index t (1 : Fin 2) * 2048 + 1 * (y 1).val := rfl
  refine congrArg₂ _ (Fin.ext ?_) (Fin.ext ?_)
  · show 256 * t.val + (y 0).val = _
    rw [h0, e0]; omega
  · show (y 1).val = _
    rw [h1, e1]; omega

/-- An index of the array is in point t's block iff each coordinate is in the block's range on its axis. -/
private theorem mem_blk10 (t : Fin cfg0.N) (i : S8192x2048.Idx) :
    i ∈ ((cfg0.win 10).blk t).view.set ↔ ∀ a : Fin 2, win0_10.index t a * S256x2048.size a ≤ (i a).val
      ∧ (i a).val < win0_10.index t a * S256x2048.size a + S256x2048.size a := by
  show i ∈ ((View.whole main_v10_2).slice (win0_10.rect t)).set ↔ _
  rw [View.set_slice_whole, Rect.mem_set_unit]
  exact Iff.rfl

/-- Every index of the array lies in the block of the point its row falls to. -/
private theorem cover10 (i : S8192x2048.Idx) :
    ∃ t : Fin cfg0.N, (cfg0.win 10).flush t = true ∧ i ∈ ((cfg0.win 10).blk t).view.set := by
  have hi0 : (i 0).val < 8192 := (i 0).isLt
  have hi1 : (i 1).val < 2048 := (i 1).isLt
  have hN : (i 0).val / 256 < cfg0.N := lt_of_lt_of_eq (by omega : (i 0).val / 256 < 32) (show cfg0.N = 32 from N_0).symm
  obtain ⟨e0, e1⟩ := idx10 ⟨(i 0).val / 256, hN⟩
  refine ⟨⟨(i 0).val / 256, hN⟩, flush0_10 _, ?_⟩
  rw [mem_blk10]
  intro a
  match a with
  | ⟨0, _⟩ =>
    show win0_10.index ⟨(i 0).val / 256, hN⟩ (0 : Fin 2) * 256 ≤ (i 0).val
      ∧ (i 0).val < win0_10.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_10.index ⟨(i 0).val / 256, hN⟩ (1 : Fin 2) * 2048 ≤ (i 1).val
      ∧ (i 1).val < win0_10.index ⟨(i 0).val / 256, hN⟩ (1 : Fin 2) * 2048 + 2048
    rw [e1]; omega

/-! ## Window 11 -/

/-- Grid point t's block of window 11 is block row t, block column 0. -/
private theorem idx11 : ∀ t : Fin cfg0.N, win0_11.index t (0 : Fin 2) = t.val ∧ win0_11.index t (1 : Fin 2) = 0 :=
  (by decide +kernel : ∀ t : Fin grid0.N, _)

/-- What point t writes back is its block of the row functions: rows 256·t … 256·t + 255, every column. -/
private theorem flushed11 (c : Dev nD) (t : Fin cfg0.N) :
    (dat0 V c).flushed 11 t = ((cfg0.win 11).blk t).view.read (Elt Ideal) (resHf (inp V c)) := by
  show (cfg0.win 11).cut (grid0.coords t) ((dat0 V c).after 11 t) = _
  rw [after0_11]
  funext y
  obtain ⟨e0, e1⟩ := idx11 t
  have hy0 : (y 0).val < 256 := (y 0).isLt
  have hy1 : (y 1).val < 1024 := (y 1).isLt
  have hl : (cfg0.win 11).cut (grid0.coords t) (outsAt0 V c t.val t.isLt).2.2.2.1 y
      = (outsAt0 V c t.val t.isLt).2.2.2.1 (ix2 (⟨(y 0).val, hy0⟩ : Fin 256) (⟨(y 1).val, hy1⟩ : Fin 1024)) :=
    congrArg (outsAt0 V c t.val t.isLt).2.2.2.1 (funext fun a => match a with | ⟨0, _⟩ => rfl | ⟨1, _⟩ => rfl)
  rw [hl, pt_Hf]
  show _ = resHf (inp V c) (((cfg0.win 11).blk t).view.emb y)
  unfold resHf
  -- the block's entry (y₀, y₁) sits at row (block row) · 256 + y₀ and column (block column) · 1024 + y₁ of the array
  have h0 : (((cfg0.win 11).blk t).view.emb y 0).val = win0_11.index t (0 : Fin 2) * 256 + 1 * (y 0).val := rfl
  have h1 : (((cfg0.win 11).blk t).view.emb y 1).val = win0_11.index t (1 : Fin 2) * 1024 + 1 * (y 1).val := rfl
  refine congrArg₂ _ (Fin.ext ?_) (Fin.ext ?_)
  · show 256 * t.val + (y 0).val = _
    rw [h0, e0]; omega
  · show (y 1).val = _
    rw [h1, e1]; omega

/-- An index of the array is in point t's block iff each coordinate is in the block's range on its axis. -/
private theorem mem_blk11 (t : Fin cfg0.N) (i : S8192x1024.Idx) :
    i ∈ ((cfg0.win 11).blk t).view.set ↔ ∀ a : Fin 2, win0_11.index t a * S256x1024.size a ≤ (i a).val
      ∧ (i a).val < win0_11.index t a * S256x1024.size a + S256x1024.size a := by
  show i ∈ ((View.whole main_v10_3).slice (win0_11.rect t)).set ↔ _
  rw [View.set_slice_whole, Rect.mem_set_unit]
  exact Iff.rfl

/-- Every index of the array lies in the block of the point its row falls to. -/
private theorem cover11 (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  have hN : (i 0).val / 256 < cfg0.N := lt_of_lt_of_eq (by omega : (i 0).val / 256 < 32) (show cfg0.N = 32 from N_0).symm
  obtain ⟨e0, e1⟩ := idx11 ⟨(i 0).val / 256, hN⟩
  refine ⟨⟨(i 0).val / 256, hN⟩, flush0_11 _, ?_⟩
  rw [mem_blk11]
  intro a
  match a with
  | ⟨0, _⟩ =>
    show win0_11.index ⟨(i 0).val / 256, hN⟩ (0 : Fin 2) * 256 ≤ (i 0).val
      ∧ (i 0).val < win0_11.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_11.index ⟨(i 0).val / 256, hN⟩ (1 : Fin 2) * 1024 ≤ (i 1).val
      ∧ (i 1).val < win0_11.index ⟨(i 0).val / 256, hN⟩ (1 : Fin 2) * 1024 + 1024
    rw [e1]; omega

/-! ## The four arrays after the run -/

/-- The hidden probabilities. -/
theorem arr8 (c : Dev nD) : (dat0 V c).arrAt 8 cfg0.N = resHp (inp V c) :=
  (dat0 V c).arrAt_eq_of_cover 8 (resHp (inp V c)) (fun t _ => flushed8 V c t) cover8

/-- The first hidden sample. -/
theorem arr9 (c : Dev nD) : (dat0 V c).arrAt 9 cfg0.N = resHd (inp V c) :=
  (dat0 V c).arrAt_eq_of_cover 9 (resHd (inp V c)) (fun t _ => flushed9 V c t) cover9

/-- The visible sample. -/
theorem arr10 (c : Dev nD) : (dat0 V c).arrAt 10 cfg0.N = resVk (inp V c) :=
  (dat0 V c).arrAt_eq_of_cover 10 (resVk (inp V c)) (fun t _ => flushed10 V c t) cover10

/-- The second hidden sample. -/
theorem arr11 (c : Dev nD) : (dat0 V c).arrAt 11 cfg0.N = resHf (inp V c) :=
  (dat0 V c).arrAt_eq_of_cover 11 (resHf (inp V c)) (fun t _ => flushed11 V c t) cover11

end Cert.KernelIdeal.Region0

end
-- ==== Proof.Region0Acc.lean ====
/- The first kernel's three accumulated results, as functions of the arrays it is entered with.

   Each accumulator keeps one block for the whole run: it holds the first tile's sum after the first grid point,
   grows by each later tile's sum, and is written back once, after the last point. The running sum over the 32
   tiles of a tile's sum over its 256 rows is the sum over all 8192 rows of the batch. -/
import proofs.«102447_j17806934409607_1_alg».proof.Proof.Spec
import proofs.«102447_j17806934409607_1_alg».proof.Proof.Points0
import proofs.«102447_j17806934409607_1_alg».proof.Proof.Gen.KernelIdeal.Frame
import Idealize.ShloMosaic.Lib.Pipeline.Value

noncomputable section

namespace Cert.KernelIdeal.Region0Acc

open Cert.KernelIdeal Cert.KernelIdeal.Gen Cert.Rbm
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

open Cert.KernelIdeal.Points0

/-! ## A running sum over the 32 tiles -/

/-- A sequence that starts at `0 + T 0` and adds `T (n + 1)` at step n + 1 holds, after step n, the sum of `T`
    over the first n + 1 tiles. -/
private theorem chain_sum (X : (n : ℕ) → n < 32 → EReal) (T : Fin 32 → EReal)
    (h0 : ∀ h : 0 < 32, X 0 h = 0 + T ⟨0, h⟩)
    (hs : ∀ (n : ℕ) (h : n + 1 < 32), X (n + 1) h = X n (Nat.lt_of_succ_lt h) + T ⟨n + 1, h⟩) :
    ∀ (n : ℕ) (h : n < 32), X n h = ∑ t ∈ Finset.range (n + 1), (if ht : t < 32 then T ⟨t, ht⟩ else 0)
  | 0, h => by rw [h0, zero_add, Finset.sum_range_one, dif_pos h]
  | n + 1, h => by rw [hs, chain_sum X T h0 hs n, Finset.sum_range_succ _ (n + 1), dif_pos h]

/-- After the last step such a sequence holds the sum over all 32 tiles. -/
private theorem chain_total (X : (n : ℕ) → n < 32 → EReal) (T : Fin 32 → EReal)
    (h0 : ∀ h : 0 < 32, X 0 h = 0 + T ⟨0, h⟩)
    (hs : ∀ (n : ℕ) (h : n + 1 < 32), X (n + 1) h = X n (Nat.lt_of_succ_lt h) + T ⟨n + 1, h⟩)
    (h : 31 < 32) : X 31 h = ∑ t : Fin 32, T t := by
  rw [chain_sum X T h0 hs 31 h, show (31 + 1 : ℕ) = 32 from rfl, Finset.sum_range]
  exact Finset.sum_congr rfl fun t _ => dif_pos t.isLt

/-- The tiles' shares of the visible-bias gradient add up to the sum over all rows. -/
private theorem sum_tVb (I : Inp) (j : Fin 2048) : ∑ t : Fin 32, tVb I t j = I.KVb j :=
  Cert.BlockSum.sum_blocks (B := 32) (R := 256) (N := 8192) rfl (fun b => I.Vk b j - I.v b j)

/-- The tiles' shares of the hidden-bias gradient add up to the sum over all rows. -/
private theorem sum_tHb (I : Inp) (q : Fin 1024) : ∑ t : Fin 32, tHb I t q = I.KHb q :=
  Cert.BlockSum.sum_blocks (B := 32) (R := 256) (N := 8192) rfl (fun b => I.Hf b q - I.Hp b q)

/-- The tiles' shares of the summed error add up to the sum over all rows. -/
private theorem sum_tRe (I : Inp) : ∑ t : Fin 32, tRe I t = I.SRe :=
  Cert.BlockSum.sum_blocks (B := 32) (R := 256) (N := 8192) rfl (fun b => ∑ j : Fin 2048, I.Ae b j)

/-! ## The accumulators point by point, numbered from zero -/

private theorem lt_N {n : ℕ} (h : n < 32) : n < cfg0.N := lt_of_lt_of_eq h (show cfg0.N = 32 from N_0).symm

/-- The visible-bias accumulator after the first grid point: the first tile's share, from zero. -/
private theorem vb_zero (c : Dev nD) (j : Fin 2048) (h : 0 < 32) :
    (outsAt0 V c 0 (lt_N h)).2.2.2.2.1 (ix2 (0 : Fin 1) j) = 0 + tVb (inp V c) ⟨0, h⟩ j :=
  pt_Vb_first V c ⟨0, lt_N h⟩ rfl j

/-- The visible-bias accumulator after a later grid point: what the point before left, plus that tile's share. -/
private theorem vb_succ (c : Dev nD) (j : Fin 2048) (n : ℕ) (h : n + 1 < 32) :
    (outsAt0 V c (n + 1) (lt_N h)).2.2.2.2.1 (ix2 (0 : Fin 1) j)
      = (outsAt0 V c n (lt_N (Nat.lt_of_succ_lt h))).2.2.2.2.1 (ix2 (0 : Fin 1) j) + tVb (inp V c) ⟨n + 1, h⟩ j :=
  pt_Vb_next V c ⟨n + 1, lt_N h⟩ (show ¬(n + 1) % 32 = 0 by omega) j

/-- The hidden-bias accumulator after the first grid point: the first tile's share, from zero. -/
private theorem hb_zero (c : Dev nD) (q : Fin 1024) (h : 0 < 32) :
    (outsAt0 V c 0 (lt_N h)).2.2.2.2.2.1 (ix2 (0 : Fin 1) q) = 0 + tHb (inp V c) ⟨0, h⟩ q :=
  pt_Hb_first V c ⟨0, lt_N h⟩ rfl q

/-- The hidden-bias accumulator after a later grid point: what the point before left, plus that tile's share. -/
private theorem hb_succ (c : Dev nD) (q : Fin 1024) (n : ℕ) (h : n + 1 < 32) :
    (outsAt0 V c (n + 1) (lt_N h)).2.2.2.2.2.1 (ix2 (0 : Fin 1) q)
      = (outsAt0 V c n (lt_N (Nat.lt_of_succ_lt h))).2.2.2.2.2.1 (ix2 (0 : Fin 1) q) + tHb (inp V c) ⟨n + 1, h⟩ q :=
  pt_Hb_next V c ⟨n + 1, lt_N h⟩ (show ¬(n + 1) % 32 = 0 by omega) q

/-- The error accumulator after the first grid point: the first tile's share, from zero. -/
private theorem re_zero (c : Dev nD) (h : 0 < 32) :
    (outsAt0 V c 0 (lt_N h)).2.2.2.2.2.2 (ix2 (0 : Fin 1) (0 : Fin 1)) = 0 + tRe (inp V c) ⟨0, h⟩ :=
  pt_Re_first V c ⟨0, lt_N h⟩ rfl

/-- The error accumulator after a later grid point: what the point before left, plus that tile's share. -/
private theorem re_succ (c : Dev nD) (n : ℕ) (h : n + 1 < 32) :
    (outsAt0 V c (n + 1) (lt_N h)).2.2.2.2.2.2 (ix2 (0 : Fin 1) (0 : Fin 1))
      = (outsAt0 V c n (lt_N (Nat.lt_of_succ_lt h))).2.2.2.2.2.2 (ix2 (0 : Fin 1) (0 : Fin 1)) + tRe (inp V c) ⟨n + 1, h⟩ :=
  pt_Re_next V c ⟨n + 1, lt_N h⟩ (show ¬(n + 1) % 32 = 0 by omega)

/-! ## The one write-back, after the last grid point -/

/-- The last grid point. -/
private abbrev tL : Fin cfg0.N := ⟨31, lt_N (by decide)⟩

/-- The only point whose number is 31 modulo 32. -/
private theorem eq_tL (t : Fin cfg0.N) (h : t.val % 32 = 31) : t = tL := by
  have hN : cfg0.N = 32 := N_0
  have := t.isLt
  exact Fin.ext (show t.val = 31 by omega)

/-- The visible-bias accumulator's block never moves: its block index at the last point is zero on both axes. -/
private theorem idx12 : ∀ a, win0_12.index tL a = 0 := by decide +kernel

/-- The visible-bias accumulator's block is its whole array. -/
private theorem xsz12 : ∀ a, win0_12.xsize (grid0.coords tL) a = main_v10_4.ty.shape.size a := by decide +kernel

/-- The one write-back of the visible-bias accumulator, after the last point, writes what that point left: the block
    read at zero offsets is the array. -/
private theorem flushed12 (c : Dev nD) (t : Fin cfg0.N) (hf : (cfg0.win 12).flush t = true) :
    (dat0 V c).flushed 12 t
      = ((cfg0.win 12).blk t).view.read (Elt Ideal) ((outsAt0 V c 31 (lt_N (by decide))).2.2.2.2.1) := by
  obtain rfl : t = tL := eq_tL t ((flush0_12 t).mp hf)
  show (cfg0.win 12).cut (grid0.coords tL) ((dat0 V c).after 12 tL) = _
  rw [after0_12]
  have hoff : (fun a => win0_12.index tL a * main_v10_4.ty.shape.size a) = fun _ => 0 :=
    funext fun a => by rw [idx12 a, Nat.zero_mul]
  exact (Memref.read_access_unit_zero (Elt Ideal) main_v10_4 hoff
    (fun a => by rw [congrFun hoff a, Nat.zero_add]) ((outsAt0 V c 31 (lt_N (by decide))).2.2.2.2.1)).symm

/-- So the visible-bias array ends holding what the last point left in the staging buffer: that write-back covers it. -/
private theorem final12 (c : Dev nD) : (dat0 V c).arrAt 12 cfg0.N = (outsAt0 V c 31 (lt_N (by decide))).2.2.2.2.1 := by
  refine (dat0 V c).arrAt_eq_of_cover 12 _ (flushed12 V c) fun i => ⟨tL, (flush0_12 tL).mpr rfl, ?_⟩
  show i ∈ ((View.whole main_v10_4).slice (win0_12.rect tL)).set
  rw [View.set_slice_whole, Rect.mem_set_unit]
  intro a
  rw [idx12 a, Nat.zero_mul, Nat.zero_add, xsz12 a]
  exact ⟨Nat.zero_le _, (i a).isLt⟩

/-- The hidden-bias accumulator's block never moves: its block index at the last point is zero on both axes. -/
private theorem idx13 : ∀ a, win0_13.index tL a = 0 := by decide +kernel

/-- The hidden-bias accumulator's block is its whole array. -/
private theorem xsz13 : ∀ a, win0_13.xsize (grid0.coords tL) a = main_v10_5.ty.shape.size a := by decide +kernel

/-- The one write-back of the hidden-bias accumulator, after the last point, writes what that point left: the block
    read at zero offsets is the array. -/
private theorem flushed13 (c : Dev nD) (t : Fin cfg0.N) (hf : (cfg0.win 13).flush t = true) :
    (dat0 V c).flushed 13 t
      = ((cfg0.win 13).blk t).view.read (Elt Ideal) ((outsAt0 V c 31 (lt_N (by decide))).2.2.2.2.2.1) := by
  obtain rfl : t = tL := eq_tL t ((flush0_13 t).mp hf)
  show (cfg0.win 13).cut (grid0.coords tL) ((dat0 V c).after 13 tL) = _
  rw [after0_13]
  have hoff : (fun a => win0_13.index tL a * main_v10_5.ty.shape.size a) = fun _ => 0 :=
    funext fun a => by rw [idx13 a, Nat.zero_mul]
  exact (Memref.read_access_unit_zero (Elt Ideal) main_v10_5 hoff
    (fun a => by rw [congrFun hoff a, Nat.zero_add]) ((outsAt0 V c 31 (lt_N (by decide))).2.2.2.2.2.1)).symm

/-- So the hidden-bias array ends holding what the last point left in the staging buffer: that write-back covers it. -/
private theorem final13 (c : Dev nD) : (dat0 V c).arrAt 13 cfg0.N = (outsAt0 V c 31 (lt_N (by decide))).2.2.2.2.2.1 := by
  refine (dat0 V c).arrAt_eq_of_cover 13 _ (flushed13 V c) fun i => ⟨tL, (flush0_13 tL).mpr rfl, ?_⟩
  show i ∈ ((View.whole main_v10_5).slice (win0_13.rect tL)).set
  rw [View.set_slice_whole, Rect.mem_set_unit]
  intro a
  rw [idx13 a, Nat.zero_mul, Nat.zero_add, xsz13 a]
  exact ⟨Nat.zero_le _, (i a).isLt⟩

/-- The error accumulator's block never moves: its block index at the last point is zero on both axes. -/
private theorem idx14 : ∀ a, win0_14.index tL a = 0 := by decide +kernel

/-- The error accumulator's block is its whole array. -/
private theorem xsz14 : ∀ a, win0_14.xsize (grid0.coords tL) a = main_v10_6.ty.shape.size a := by decide +kernel

/-- The one write-back of the error accumulator, after the last point, writes what that point left: the block
    read at zero offsets is the array. -/
private theorem flushed14 (c : Dev nD) (t : Fin cfg0.N) (hf : (cfg0.win 14).flush t = true) :
    (dat0 V c).flushed 14 t
      = ((cfg0.win 14).blk t).view.read (Elt Ideal) ((outsAt0 V c 31 (lt_N (by decide))).2.2.2.2.2.2) := by
  obtain rfl : t = tL := eq_tL t ((flush0_14 t).mp hf)
  show (cfg0.win 14).cut (grid0.coords tL) ((dat0 V c).after 14 tL) = _
  rw [after0_14]
  have hoff : (fun a => win0_14.index tL a * main_v10_6.ty.shape.size a) = fun _ => 0 :=
    funext fun a => by rw [idx14 a, Nat.zero_mul]
  exact (Memref.read_access_unit_zero (Elt Ideal) main_v10_6 hoff
    (fun a => by rw [congrFun hoff a, Nat.zero_add]) ((outsAt0 V c 31 (lt_N (by decide))).2.2.2.2.2.2)).symm

/-- So the error array ends holding what the last point left in the staging buffer: that write-back covers it. -/
private theorem final14 (c : Dev nD) : (dat0 V c).arrAt 14 cfg0.N = (outsAt0 V c 31 (lt_N (by decide))).2.2.2.2.2.2 := by
  refine (dat0 V c).arrAt_eq_of_cover 14 _ (flushed14 V c) fun i => ⟨tL, (flush0_14 tL).mpr rfl, ?_⟩
  show i ∈ ((View.whole main_v10_6).slice (win0_14.rect tL)).set
  rw [View.set_slice_whole, Rect.mem_set_unit]
  intro a
  rw [idx14 a, Nat.zero_mul, Nat.zero_add, xsz14 a]
  exact ⟨Nat.zero_le _, (i a).isLt⟩

/-! ## The three results -/

/-- The visible-bias gradient, a [1, 2048] row. -/
theorem arr12 (c : Dev nD) (j : Fin 2048) : (dat0 V c).arrAt 12 cfg0.N (ix2 (0 : Fin 1) j) = (inp V c).KVb j := by
  rw [final12 V c]
  have e := chain_total (fun n h => (outsAt0 V c n (lt_N h)).2.2.2.2.1 (ix2 (0 : Fin 1) j)) (fun t => tVb (inp V c) t j)
    (vb_zero V c j) (vb_succ V c j) (by decide)
  exact e.trans (sum_tVb (inp V c) j)

/-- The hidden-bias gradient, a [1, 1024] row. -/
theorem arr13 (c : Dev nD) (h : Fin 1024) : (dat0 V c).arrAt 13 cfg0.N (ix2 (0 : Fin 1) h) = (inp V c).KHb h := by
  rw [final13 V c]
  have e := chain_total (fun n hn => (outsAt0 V c n (lt_N hn)).2.2.2.2.2.1 (ix2 (0 : Fin 1) h)) (fun t => tHb (inp V c) t h)
    (hb_zero V c h) (hb_succ V c h) (by decide)
  exact e.trans (sum_tHb (inp V c) h)

/-- The summed absolute reconstruction error, a [1, 1] array. -/
theorem arr14 (c : Dev nD) : (dat0 V c).arrAt 14 cfg0.N (ix2 (0 : Fin 1) (0 : Fin 1)) = (inp V c).SRe := by
  rw [final14 V c]
  have e := chain_total (fun n hn => (outsAt0 V c n (lt_N hn)).2.2.2.2.2.2 (ix2 (0 : Fin 1) (0 : Fin 1))) (fun t => tRe (inp V c) t)
    (re_zero V c) (re_succ V c) (by decide)
  exact e.trans (sum_tRe (inp V c))

end Cert.KernelIdeal.Region0Acc

end
-- ==== Proof.Pay1.lean ====
/- The second kernel body's arithmetic, read at one index: a tile adds its share of vkᵀ·hf to the
   weight-gradient accumulator and takes away its share of vᵀ·hd; each share is a sum over the tile's 256 rows (a
   product with the left operand transposed), and a change of float format is the identity. -/
import proofs.«102447_j17806934409607_1_alg».proof.Proof.Spec
import proofs.«102447_j17806934409607_1_alg».proof.Proof.LibDotPlain
import proofs.«102447_j17806934409607_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Pay1

open Cert.KernelIdeal Cert.KernelIdeal.Gen Cert.Rbm
open Idealize.ShloMosaic Idealize.ShloMosaic.ValueIdx
open scoped BigOperators

/-! ## The operations that are not pointwise, read at one index -/

/-- A [256, 2048] block transposed, times a [256, 1024] block, into zero, at (j, h): the transposed block at
    (j, p) is the block at (p, j), so the product is the sum over the block's 256 rows. -/
private theorem mmT (l : FVec Ideal S256x2048 .bf16) (r : FVec Ideal S256x1024 .bf16) (j : Fin 2048) (h : Fin 1024) :
    matmul dot_S2048x256_S256x1024_S2048x1024_1_0_0_1_n_n none
        (transpose S2048x256 [1, 0] l transposes_S256x2048_p1_0_S2048x256) r (constant S2048x1024 .f32 0x00000000#32) (ix2 j h)
      = ∑ p : Fin 256, l (ix2 p j) * r (ix2 p h) := by
  refine (Cert.DotPlain.matmul_zero_rows_cols _ rfl rfl rfl rfl rfl rfl none _ r j h).trans ?_
  refine Finset.sum_congr rfl fun p _ => congrArg (· * _) ?_
  exact transpose_apply [1, 0] l transposes_S256x2048_p1_0_S2048x256 (ix2 j p) (ix2 p j)
    (fun b => match b with | ⟨0, _⟩ => rfl | ⟨1, _⟩ => rfl)

/-- The adding half of a tile's step: the accumulator plus the tile's share of the transposed product. -/
private theorem pay2_apply (v7 : FVec Ideal S256x2048 .bf16) (v9 : FVec Ideal S256x1024 .bf16) (v11 : FVec Ideal S2048x1024 .f32)
    (j : Fin 2048) (h : Fin 1024) :
    k1_pay2 v7 v9 v11 (ix2 j h) = v11 (ix2 j h) + ∑ p : Fin 256, v7 (ix2 p j) * v9 (ix2 p h) := by
  unfold k1_pay2
  refine congrArg₂ (· + ·) (congrFun (shapeCast_self v11 _) _) ?_
  rw [shapeCast_self, shapeCast_self]
  exact mmT v7 v9 j h

/-- The subtracting half: the accumulator minus the tile's share of the transposed product; the change of format
    of the left block is the identity. -/
private theorem pay3_apply (v3 : FVec Ideal S256x2048 .f32) (v5 : FVec Ideal S256x1024 .bf16) (v17 : FVec Ideal S2048x1024 .f32)
    (j : Fin 2048) (h : Fin 1024) :
    k1_pay3 v3 v5 v17 (ix2 j h) = v17 (ix2 j h) - ∑ p : Fin 256, v3 (ix2 p j) * v5 (ix2 p h) := by
  unfold k1_pay3
  refine congrArg₂ (· - ·) (congrFun (shapeCast_self v17 _) _) ?_
  rw [shapeCast_self]
  exact mmT (truncf .bf16 v3 bitsLt_bf16_f32) v5 j h

section tile1

variable (y0 : Vec Ideal S256x2048 .f32) (y1 : Vec Ideal S256x1024 .bf16) (y2 : Vec Ideal S256x2048 .bf16)
  (y3 : Vec Ideal S256x1024 .bf16)

/-- The weight-gradient accumulator acc gains the tile's share of vkᵀ·hf and loses its share of vᵀ·hd. -/
theorem tile_W (acc : Vec Ideal S2048x1024 .f32) (j : Fin 2048) (h : Fin 1024) :
    k1_pay3 y0 y1 (k1_pay2 y2 y3 acc) (ix2 j h)
      = (acc (ix2 j h) + ∑ p : Fin 256, y2 (ix2 p j) * y3 (ix2 p h)) - ∑ p : Fin 256, y0 (ix2 p j) * y1 (ix2 p h) := by
  rw [pay3_apply, pay2_apply]

end tile1

/-- The weight-gradient accumulator is reset to zero. -/
theorem zero_W (j : Fin 2048) (h : Fin 1024) : k1_pay1 (F := Ideal) (ix2 j h) = 0 :=
  Ideal.ofBits_zero_f32

end Cert.KernelIdeal.Pay1

end
-- ==== Proof.Region1.lean ====
/- The second kernel's result array, as a function of the arrays it is entered with.

   Its one output block is the whole weight-gradient array, kept in place over the 32 tiles: reset at the first
   tile; at every tile it gains that tile's share of vkᵀ·hf and loses its share of vᵀ·hd; written back once after the
   last tile. So the array ends at the ordered accumulation over the tiles. -/
import proofs.«102447_j17806934409607_1_alg».proof.Proof.Spec
import proofs.«102447_j17806934409607_1_alg».proof.Proof.Pieces
import proofs.«102447_j17806934409607_1_alg».proof.Proof.Pay1
import proofs.«102447_j17806934409607_1_alg».proof.Proof.Gen.KernelIdeal.Frame
import Idealize.ShloMosaic.Lib.Pipeline.Value

noncomputable section

namespace Cert.KernelIdeal.Region1

open Cert.KernelIdeal Cert.KernelIdeal.Gen Cert.Rbm
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The tiles and the blocks the kernel reads -/

/-- The tile a grid point works on. -/
private def tile (t : Fin cfg1.N) : Fin 32 := ⟨t.val, lt_of_lt_of_eq t.isLt (show cfg1.N = 32 from N_1)⟩

/-- Window 0's block index at point t is (t, 0): tile t of the rows, all the columns. -/
private theorem idx1_0 : ∀ t : Fin cfg1.N, win1_0.index t 0 = t.val ∧ win1_0.index t 1 = 0 :=
  (by decide +kernel : ∀ t : Fin grid1.N, win1_0.index t 0 = t.val ∧ win1_0.index t 1 = 0)

/-- Window 0's block at point t, at (p, j), is its array at row 256·t + p. -/
private theorem blk0_apply (c : Dev nD) (t : Fin cfg1.N) (p : Fin 256) (j : Fin 2048) :
    (iblk1 V c 0 t : Vec Ideal S256x2048 .f32) (ix2 p j) = V c main_arg0 (ix2 (row (tile t) p) j) := by
  unfold iblk1
  rw [View.read_apply]
  show V c main_arg0 _ = V c main_arg0 _
  congr 1
  funext a
  apply Fin.ext
  match a with
  | ⟨0, _⟩ => show win1_0.index t 0 * 256 + 1 * p.val = 256 * t.val + p.val; rw [(idx1_0 t).1]; omega
  | ⟨1, _⟩ => show win1_0.index t 1 * 2048 + 1 * j.val = j.val; rw [(idx1_0 t).2]; omega

/-- Window 1's block index at point t is (t, 0): tile t of the rows, all the columns. -/
private theorem idx1_1 : ∀ t : Fin cfg1.N, win1_1.index t 0 = t.val ∧ win1_1.index t 1 = 0 :=
  (by decide +kernel : ∀ t : Fin grid1.N, win1_1.index t 0 = t.val ∧ win1_1.index t 1 = 0)

/-- Window 1's block at point t, at (p, h), is its array at row 256·t + p. -/
private theorem blk1_apply (c : Dev nD) (t : Fin cfg1.N) (p : Fin 256) (h : Fin 1024) :
    (iblk1 V c 1 t : Vec Ideal S256x1024 .bf16) (ix2 p h) = V c main_v10_1 (ix2 (row (tile t) p) h) := by
  unfold iblk1
  rw [View.read_apply]
  show V c main_v10_1 _ = V c main_v10_1 _
  congr 1
  funext a
  apply Fin.ext
  match a with
  | ⟨0, _⟩ => show win1_1.index t 0 * 256 + 1 * p.val = 256 * t.val + p.val; rw [(idx1_1 t).1]; omega
  | ⟨1, _⟩ => show win1_1.index t 1 * 1024 + 1 * h.val = h.val; rw [(idx1_1 t).2]; omega

/-- Window 2's block index at point t is (t, 0): tile t of the rows, all the columns. -/
private theorem idx1_2 : ∀ t : Fin cfg1.N, win1_2.index t 0 = t.val ∧ win1_2.index t 1 = 0 :=
  (by decide +kernel : ∀ t : Fin grid1.N, win1_2.index t 0 = t.val ∧ win1_2.index t 1 = 0)

/-- Window 2's block at point t, at (p, j), is its array at row 256·t + p. -/
private theorem blk2_apply (c : Dev nD) (t : Fin cfg1.N) (p : Fin 256) (j : Fin 2048) :
    (iblk1 V c 2 t : Vec Ideal S256x2048 .bf16) (ix2 p j) = V c main_v10_2 (ix2 (row (tile t) p) j) := by
  unfold iblk1
  rw [View.read_apply]
  show V c main_v10_2 _ = V c main_v10_2 _
  congr 1
  funext a
  apply Fin.ext
  match a with
  | ⟨0, _⟩ => show win1_2.index t 0 * 256 + 1 * p.val = 256 * t.val + p.val; rw [(idx1_2 t).1]; omega
  | ⟨1, _⟩ => show win1_2.index t 1 * 2048 + 1 * j.val = j.val; rw [(idx1_2 t).2]; omega

/-- Window 3's block index at point t is (t, 0): tile t of the rows, all the columns. -/
private theorem idx1_3 : ∀ t : Fin cfg1.N, win1_3.index t 0 = t.val ∧ win1_3.index t 1 = 0 :=
  (by decide +kernel : ∀ t : Fin grid1.N, win1_3.index t 0 = t.val ∧ win1_3.index t 1 = 0)

/-- Window 3's block at point t, at (p, h), is its array at row 256·t + p. -/
private theorem blk3_apply (c : Dev nD) (t : Fin cfg1.N) (p : Fin 256) (h : Fin 1024) :
    (iblk1 V c 3 t : Vec Ideal S256x1024 .bf16) (ix2 p h) = V c main_v10_3 (ix2 (row (tile t) p) h) := by
  unfold iblk1
  rw [View.read_apply]
  show V c main_v10_3 _ = V c main_v10_3 _
  congr 1
  funext a
  apply Fin.ext
  match a with
  | ⟨0, _⟩ => show win1_3.index t 0 * 256 + 1 * p.val = 256 * t.val + p.val; rw [(idx1_3 t).1]; omega
  | ⟨1, _⟩ => show win1_3.index t 1 * 1024 + 1 * h.val = h.val; rw [(idx1_3 t).2]; omega

/-! ## The four arrays as functions of coordinates, and the blocks by their literal types -/

private abbrev fv (c : Dev nD) : Fin 8192 → Fin 2048 → EReal := fun b j => V c main_arg0 (ix2 b j)
private abbrev fhd (c : Dev nD) : Fin 8192 → Fin 1024 → EReal := fun b h => V c main_v10_1 (ix2 b h)
private abbrev fvk (c : Dev nD) : Fin 8192 → Fin 2048 → EReal := fun b j => V c main_v10_2 (ix2 b j)
private abbrev fhf (c : Dev nD) : Fin 8192 → Fin 1024 → EReal := fun b h => V c main_v10_3 (ix2 b h)

private abbrev b0 (c : Dev nD) (t : Fin cfg1.N) : Vec Ideal S256x2048 .f32 := iblk1 V c 0 t
private abbrev b1 (c : Dev nD) (t : Fin cfg1.N) : Vec Ideal S256x1024 .bf16 := iblk1 V c 1 t
private abbrev b2 (c : Dev nD) (t : Fin cfg1.N) : Vec Ideal S256x2048 .bf16 := iblk1 V c 2 t
private abbrev b3 (c : Dev nD) (t : Fin cfg1.N) : Vec Ideal S256x1024 .bf16 := iblk1 V c 3 t

/-! ## One point's step, and the accumulation over the points -/

/-- At point t the accumulator gains tile t's share of vkᵀ·hf and loses its share of vᵀ·hd. -/
private theorem step (c : Dev nD) (t : Fin cfg1.N) (acc : Vec Ideal S2048x1024 .f32) (j : Fin 2048) (h : Fin 1024) :
    k1_pay3 (b0 V c t) (b1 V c t) (k1_pay2 (b2 V c t) (b3 V c t) acc) (ix2 j h)
      = (acc (ix2 j h) + tileDot (fvk V c) (fhf V c) (tile t) j h) - tileDot (fv V c) (fhd V c) (tile t) j h := by
  rw [Pay1.tile_W (b0 V c t) (b1 V c t) (b2 V c t) (b3 V c t) acc j h]
  unfold tileDot
  simp only [blk0_apply V c t, blk1_apply V c t, blk2_apply V c t, blk3_apply V c t]

/-- What the output's staging buffer holds after point n is the ordered accumulation up to tile n: by induction
    on the point, the first point from zero. -/
private theorem outsAt_eq (c : Dev nD) (j : Fin 2048) (h : Fin 1024) : ∀ (n : ℕ) (hn : n < cfg1.N),
    outsAt1 V c n hn (ix2 j h)
      = wchain (fun t => tileDot (fvk V c) (fhf V c) t j h) (fun t => tileDot (fv V c) (fhd V c) t j h) n
          (lt_of_lt_of_eq hn (show cfg1.N = 32 from N_1))
  | 0, hn => by
    rw [outsAt1_A V c ⟨0, hn⟩ rfl, Pieces.out1_A_4_eq]
    refine (step V c ⟨0, hn⟩ _ j h).trans ?_
    rw [Pay1.zero_W]
    rfl
  | n + 1, hn => by
    have hN : n + 1 < 32 := lt_of_lt_of_eq hn (show cfg1.N = 32 from N_1)
    have hB : ¬(⟨n + 1, hn⟩ : Fin cfg1.N).val % 32 = 0 := by dsimp only; omega
    rw [outsAt1_B V c ⟨n + 1, hn⟩ hB, Pieces.out1_B_4_eq]
    refine (step V c ⟨n + 1, hn⟩ _ j h).trans ?_
    show (outsAt1 V c n _ (ix2 j h) + _) - _ = _
    rw [outsAt_eq c j h n]
    rfl

/-! ## The write-back -/

/-- The output window's block index is (0, 0) at every point, and its block is the whole [2048, 1024] array. -/
private theorem idx1_4 : ∀ t : Fin cfg1.N, win1_4.index t 0 = 0 ∧ win1_4.index t 1 = 0 :=
  (by decide +kernel : ∀ t : Fin grid1.N, win1_4.index t 0 = 0 ∧ win1_4.index t 1 = 0)
private theorem xsize1_4 : ∀ t : Fin cfg1.N, win1_4.xsize (grid1.coords t) 0 = 2048 ∧ win1_4.xsize (grid1.coords t) 1 = 1024 :=
  (by decide +kernel : ∀ t : Fin grid1.N, win1_4.xsize (grid1.coords t) 0 = 2048 ∧ win1_4.xsize (grid1.coords t) 1 = 1024)

/-- The accumulation after the last tile, as an array. -/
private def resultV (c : Dev nD) : Vec Ideal S2048x1024 .f32 :=
  fun i => kwOf (fv V c) (fvk V c) (fhd V c) (fhf V c) (i 0) (i 1)
private abbrev result (c : Dev nD) : Buf (Elt Ideal) ((c : Thread nD τ).loc main_v11) := resultV V c

/-- After point 31 the staging buffer holds it. -/
private theorem outs31 (c : Dev nD) (hn : 31 < cfg1.N) : outsAt1 V c 31 hn = resultV V c := by
  funext i
  obtain ⟨j, h, rfl⟩ : ∃ (j : Fin 2048) (h : Fin 1024), i = ix2 j h := ⟨i 0, i 1, eq_ix2 i⟩
  exact outsAt_eq V c j h 31 hn

/-- The one write-back, after point 31, writes it: the block is the whole array. -/
private theorem flushed_eq (c : Dev nD) (t : Fin cfg1.N) (hf : (cfg1.win 4).flush t = true) :
    (dat1 V c).flushed 4 t = ((cfg1.win 4).blk t).view.read (Elt Ideal) (result V c) := by
  have hN : cfg1.N = 32 := N_1
  have h31 : t.val = 31 := by have := (flush1_4 t).mp hf; have := t.isLt; omega
  obtain ⟨n, hn⟩ := t
  dsimp only at h31
  subst h31
  show (cfg1.win 4).cut (grid1.coords ⟨31, hn⟩) ((dat1 V c).after 4 ⟨31, hn⟩) = _
  rw [after1_4, outs31]
  have hz' : (fun a => win1_4.index ⟨31, hn⟩ a * main_v11.ty.shape.size a) = fun _ => 0 :=
    funext fun a => by
      match a with
      | ⟨0, _⟩ => show win1_4.index ⟨31, hn⟩ 0 * _ = 0; rw [(idx1_4 ⟨31, hn⟩).1, Nat.zero_mul]
      | ⟨1, _⟩ => show win1_4.index ⟨31, hn⟩ 1 * _ = 0; rw [(idx1_4 ⟨31, hn⟩).2, Nat.zero_mul]
  exact (Memref.read_access_unit_zero (Elt Ideal) main_v11 hz' (fun a => by rw [congrFun hz' a]; simp) (result V c)).symm

/-- The weight gradient: the tile-by-tile accumulation of vkᵀ·hf − vᵀ·hd over the four arrays the kernel reads. -/
theorem arr4 (c : Dev nD) (j : Fin 2048) (h : Fin 1024) :
    (dat1 V c).arrAt 4 cfg1.N (ix2 j h)
      = kwOf (fun b j => V c main_arg0 (ix2 b j)) (fun b j => V c main_v10_2 (ix2 b j))
          (fun b h => V c main_v10_1 (ix2 b h)) (fun b h => V c main_v10_3 (ix2 b h)) j h := by
  have h31 : 31 < cfg1.N := by rw [show cfg1.N = 32 from N_1]; decide
  have e : (dat1 V c).arrAt 4 cfg1.N = result V c :=
    (dat1 V c).arrAt_eq_of_cover 4 (result V c) (flushed_eq V c) fun i =>
      ⟨⟨31, h31⟩, (flush1_4 ⟨31, h31⟩).mpr rfl, by
        show i ∈ ((View.whole main_v11).slice (win1_4.rect ⟨31, h31⟩)).set
        rw [View.set_slice_whole, Rect.mem_set_unit]
        intro a
        have h0 : (i 0 : Nat) < 2048 := (i 0).isLt
        have h1 : (i 1 : Nat) < 1024 := (i 1).isLt
        match a with
        | ⟨0, _⟩ =>
          show win1_4.index ⟨31, h31⟩ 0 * win1_4.size 0 ≤ (i 0 : Nat)
            ∧ (i 0 : Nat) < win1_4.index ⟨31, h31⟩ 0 * win1_4.size 0 + win1_4.xsize (grid1.coords ⟨31, h31⟩) 0
          rw [(idx1_4 ⟨31, h31⟩).1, (xsize1_4 ⟨31, h31⟩).1, Nat.zero_mul]
          omega
        | ⟨1, _⟩ =>
          show win1_4.index ⟨31, h31⟩ 1 * win1_4.size 1 ≤ (i 1 : Nat)
            ∧ (i 1 : Nat) < win1_4.index ⟨31, h31⟩ 1 * win1_4.size 1 + win1_4.xsize (grid1.coords ⟨31, h31⟩) 1
          rw [(idx1_4 ⟨31, h31⟩).2, (xsize1_4 ⟨31, h31⟩).2, Nat.zero_mul]
          omega⟩
  exact congrFun e (ix2 j h)

end Cert.KernelIdeal.Region1

end
-- ==== Proof.HostEnds.lean ====
/- The host operations around the two kernels, and what crosses each boundary.

   Before the first kernel the host only re-lays the arguments: the weights in a narrower format (the identity over
   the extended reals), their transpose, the biases as [1, n] rows, the two slices of the hidden draws and the
   visible draws with their leading unit axis dropped. So the first kernel's inputs are the arguments read at
   re-arranged coordinates. Between the kernels nothing runs: the second kernel reads the batch and three of the
   first kernel's results. After it the host drops unit axes from the three accumulated results and divides the
   summed error by 2²⁴. -/
import proofs.«102447_j17806934409607_1_alg».proof.Proof.Spec
import proofs.«102447_j17806934409607_1_alg».proof.Proof.Points0
import proofs.«102447_j17806934409607_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.HostEnds

open Cert.KernelIdeal Cert.KernelIdeal.Gen Cert.Rbm
open Idealize.ShloMosaic Idealize.ShloMosaic.TcCoe Idealize.ShloMosaic.ValueIdx Idealize.SL.Sem Idealize.ShloMosaic.StableHlo
open Idealize.ShloMosaic.Pipeline (Dat)
open scoped BigOperators

section anyF

variable {F : FTy → Type} [FloatOps F]
variable (m : (ℓ : Loc nD τ sig) → Buf (Elt F) ℓ) (ρ : Dev nD → PrngReg)

/-! ## What the first kernel is entered with -/

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) : V1 m ρ c main_v0 = truncf .bf16 (m ((c : Thread nD τ).loc main_arg1)) bitsLt_bf16_f32 := by
  show StableHlo.after hostOps0 (W0 m ρ c) (Proc.devRef .tc main_v0) = _
  after_results

theorem V1_v2 (c : Dev nD) : V1 m ρ c main_v2
    = truncf .bf16 (transpose S1024x2048 [1, 0] (m ((c : Thread nD τ).loc main_arg1)) transposes_S2048x1024_S1024x2048_1_0) bitsLt_bf16_f32 := by
  show StableHlo.after hostOps0 (W0 m ρ c) (Proc.devRef .tc main_v2) = _
  after_results

theorem V1_v3 (c : Dev nD) : V1 m ρ c main_v3 = shapeCast S1x2048 (m ((c : Thread nD τ).loc main_arg2)) shapeCasts_S2048_S1x2048 := by
  show StableHlo.after hostOps0 (W0 m ρ c) (Proc.devRef .tc main_v3) = _
  after_results <;> rfl

theorem V1_v4 (c : Dev nD) : V1 m ρ c main_v4 = shapeCast S1x1024 (m ((c : Thread nD τ).loc main_arg3)) shapeCasts_S1024_S1x1024 := by
  show StableHlo.after hostOps0 (W0 m ρ c) (Proc.devRef .tc main_v4) = _
  after_results <;> rfl

theorem V1_v6 (c : Dev nD) : V1 m ρ c main_v6
    = shapeCast S8192x1024 (extractStridedSlice S1x8192x1024 ![0, 0, 0] (m ((c : Thread nD τ).loc main_arg4)) slices_S2x8192x1024_S1x8192x1024_0_0_0)
        shapeCasts_S1x8192x1024_S8192x1024 := by
  show StableHlo.after hostOps0 (W0 m ρ c) (Proc.devRef .tc main_v6) = _
  after_results <;> rfl

theorem V1_v8 (c : Dev nD) : V1 m ρ c main_v8
    = shapeCast S8192x1024 (extractStridedSlice S1x8192x1024 ![1, 0, 0] (m ((c : Thread nD τ).loc main_arg4)) slices_S2x8192x1024_S1x8192x1024_1_0_0)
        shapeCasts_S1x8192x1024_S8192x1024 := by
  show StableHlo.after hostOps0 (W0 m ρ c) (Proc.devRef .tc main_v8) = _
  after_results <;> rfl

theorem V1_v9 (c : Dev nD) : V1 m ρ c main_v9 = shapeCast S8192x2048 (m ((c : Thread nD τ).loc main_arg5)) shapeCasts_S1x8192x2048_S8192x2048 := by
  show StableHlo.after hostOps0 (W0 m ρ c) (Proc.devRef .tc main_v9) = _
  after_results <;> rfl

/-! ## What the second kernel is entered with: the batch as launched, and three results of the first -/

theorem V2_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_arg0 m ρ c)

theorem V2_v10_1 (c : Dev nD) : V2 m ρ c main_v10_1 = (dat0 (V1 m ρ) c).arrAt 9 cfg0.N := W2_arr m ρ c 9
theorem V2_v10_2 (c : Dev nD) : V2 m ρ c main_v10_2 = (dat0 (V1 m ρ) c).arrAt 10 cfg0.N := W2_arr m ρ c 10
theorem V2_v10_3 (c : Dev nD) : V2 m ρ c main_v10_3 = (dat0 (V1 m ρ) c).arrAt 11 cfg0.N := W2_arr m ρ c 11

/-! ## The five results at the last boundary -/

/-- No operation after the kernels writes buffer b. -/
theorem W4_of_not_written (c : Dev nD) (b : Ref sig .tc)
    (hb : ∀ op ∈ (hostOps2 : List (HloOp τ sig (Elt F))), (Proc.devRef .tc b : DevRef τ sig) ∉ op.writes) :
    W4 m ρ c (Proc.devRef .tc b) = W3 m ρ c (Proc.devRef .tc b) :=
  StableHlo.after_of_forall_not_mem (b := Proc.devRef .tc b) _ _ hb

private theorem hostOps2_not_written (b : Ref sig .tc)
    (hb : b ≠ main_v12 ∧ b ≠ main_v13 ∧ b ≠ main_v14 ∧ b ≠ main_cst ∧ b ≠ main_v15) :
    ∀ op ∈ (hostOps2 : List (HloOp τ sig (Elt F))), (Proc.devRef .tc b : DevRef τ sig) ∉ op.writes :=
  List.forall_iff_forall_mem.mp (by
    simp only [hostOps2, List.Forall, StableHlo.nullary_writes, StableHlo.unary_writes, StableHlo.binary_writes,
      StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩)

/-- The hidden probabilities: the first kernel's first result, untouched since. -/
theorem W4_v10_0 (c : Dev nD) : W4 m ρ c (Proc.devRef .tc main_v10_0) = (dat0 (V1 m ρ) c).arrAt 8 cfg0.N :=
  (W4_of_not_written m ρ c main_v10_0 (hostOps2_not_written main_v10_0 (by decide))).trans
    ((W3_of_ne m ρ c main_v10_0 (by decide)).trans (W2_arr m ρ c 8))

/-- The weight gradient: the second kernel's result, untouched since. -/
theorem W4_v11 (c : Dev nD) : W4 m ρ c (Proc.devRef .tc main_v11) = (dat1 (V2 m ρ) c).arrAt 4 cfg1.N :=
  (W4_of_not_written m ρ c main_v11 (hostOps2_not_written main_v11 (by decide))).trans (W3_arr m ρ c 4)

/-- The first kernel's three accumulated results cross the second kernel untouched. -/
theorem W3_v10_4 (c : Dev nD) : W3 m ρ c (Proc.devRef .tc main_v10_4) = (dat0 (V1 m ρ) c).arrAt 12 cfg0.N :=
  (W3_of_ne m ρ c main_v10_4 (by decide)).trans (W2_arr m ρ c 12)
theorem W3_v10_5 (c : Dev nD) : W3 m ρ c (Proc.devRef .tc main_v10_5) = (dat0 (V1 m ρ) c).arrAt 13 cfg0.N :=
  (W3_of_ne m ρ c main_v10_5 (by decide)).trans (W2_arr m ρ c 13)
theorem W3_v10_6 (c : Dev nD) : W3 m ρ c (Proc.devRef .tc main_v10_6) = (dat0 (V1 m ρ) c).arrAt 14 cfg0.N :=
  (W3_of_ne m ρ c main_v10_6 (by decide)).trans (W2_arr m ρ c 14)

/-- The visible-bias gradient: the [1, 2048] row with its unit axis dropped. -/
theorem W4_v12 (c : Dev nD) : W4 m ρ c (Proc.devRef .tc main_v12)
    = shapeCast S2048 ((dat0 (V1 m ρ) c).arrAt 12 cfg0.N) shapeCasts_S1x2048_S2048 := by
  rw [← W3_v10_4 m ρ c]
  show StableHlo.after hostOps2 (W3 m ρ c) (Proc.devRef .tc main_v12) = _
  after_results <;> rfl

/-- The hidden-bias gradient: the [1, 1024] row with its unit axis dropped. -/
theorem W4_v13 (c : Dev nD) : W4 m ρ c (Proc.devRef .tc main_v13)
    = shapeCast S1024 ((dat0 (V1 m ρ) c).arrAt 13 cfg0.N) shapeCasts_S1x1024_S1024 := by
  rw [← W3_v10_5 m ρ c]
  show StableHlo.after hostOps2 (W3 m ρ c) (Proc.devRef .tc main_v13) = _
  after_results <;> rfl

/-- The mean absolute error: the [1, 1] sum as a scalar, divided by the constant 2²⁴. -/
theorem W4_v15 (c : Dev nD) : W4 m ρ c (Proc.devRef .tc main_v15)
    = Host.divf (shapeCast S_ ((dat0 (V1 m ρ) c).arrAt 14 cfg0.N) shapeCasts_S1x1_S_) (constant S_ .f32 0x4B800000#32) := by
  rw [← W3_v10_6 m ρ c]
  show StableHlo.after hostOps2 (W3 m ρ c) (Proc.devRef .tc main_v15) = _
  after_results <;> rfl

end anyF

end Cert.KernelIdeal.HostEnds

end
-- ==== Proof.KernelValue.lean ====
/- The kernel program's five results as the specification's tiled arrangement of the six arguments.

   The first kernel's inputs are the arguments re-laid (a narrower float format is the identity over the extended
   reals; the transposed weights read the weights at swapped coordinates; a bias row [1, n] reads the bias at its
   second coordinate; each array of draws reads its argument at a fixed leading coordinate), so its results are the
   specification's row functions and sums of the arguments themselves; the second kernel reads the batch and three of
   those results; and the host's closing operations drop unit axes and divide the summed error by 2²⁴. -/
import proofs.«102447_j17806934409607_1_alg».proof.Proof.Spec
import proofs.«102447_j17806934409607_1_alg».proof.Proof.Points0
import proofs.«102447_j17806934409607_1_alg».proof.Proof.Region0
import proofs.«102447_j17806934409607_1_alg».proof.Proof.Region0Acc
import proofs.«102447_j17806934409607_1_alg».proof.Proof.Region1
import proofs.«102447_j17806934409607_1_alg».proof.Proof.HostEnds
import proofs.«102447_j17806934409607_1_alg».proof.Proof.RunW
import Idealize.ShloMosaic.Lib.Pipeline.Value
import Idealize.ShloMosaic.Lib.ValueLayout

noncomputable section

namespace Cert.KernelIdeal.KernelValue

open Cert.KernelIdeal Cert.KernelIdeal.Gen Cert.Rbm
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The specification's inputs read off the six argument arrays as launched. -/
def args (c : Dev nD) : Inp :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The pattern 0x4B800000 denotes 2²⁴ = 16777216. -/
private theorem ofBits_two24 : Ideal.ofBits .f32 0x4B800000#32 = ((16777216 : ℝ) : EReal) := by
  simp [Ideal.ofBits, Ideal.ieee, -EReal.coe_mul]; norm_num

/-- The first kernel's inputs, as it finds them after the host's re-laying, are the arguments' own. -/
theorem inp_V1 (c : Dev nD) : Points0.inp (V1 m ρ) c = args m c := by
  unfold Points0.inp args ofArgs
  rw [Inp.mk.injEq]
  refine ⟨?_, ?_, ?_, ?_, ?_, ?_, ?_, ?_⟩
  · -- the batch is the first argument itself
    funext b j; rw [HostEnds.V1_arg0]
  · -- the weights in the narrower format are the weights
    funext k h; rw [HostEnds.V1_v0]; rfl
  · -- the transposed weights read the weights at swapped coordinates
    funext h j; rw [HostEnds.V1_v2]
    exact transpose_ix2_apply _ _ h j
  · -- a bias row [1, n] reads the bias at its second coordinate
    funext j; rw [HostEnds.V1_v3]
    exact shapeCast_a_1a_apply _ _ 0 j
  · funext h; rw [HostEnds.V1_v4]
    exact shapeCast_a_1a_apply _ _ 0 h
  · -- the first slice of the hidden draws, its unit axis dropped
    funext b h; rw [HostEnds.V1_v6]
    refine (shapeCast_1ab_ab_apply _ _ b h).trans ?_
    exact extractStridedSlice_apply _ _ _ _ (ix3 (0 : Fin 2) b h) fun a => match a with
      | ⟨0, _⟩ => rfl
      | ⟨1, _⟩ => (Nat.zero_add _).symm
      | ⟨2, _⟩ => (Nat.zero_add _).symm
  · -- the second slice of the hidden draws
    funext b h; rw [HostEnds.V1_v8]
    refine (shapeCast_1ab_ab_apply _ _ b h).trans ?_
    exact extractStridedSlice_apply _ _ _ _ (ix3 (1 : Fin 2) b h) fun a => match a with
      | ⟨0, _⟩ => rfl
      | ⟨1, _⟩ => (Nat.zero_add _).symm
      | ⟨2, _⟩ => (Nat.zero_add _).symm
  · -- the visible draws, their unit axis dropped
    funext b j; rw [HostEnds.V1_v9]
    exact shapeCast_1ab_ab_apply _ _ b j

/-- The hidden probabilities. -/
theorem res_hp (c : Dev nD) : W4 m ρ c (Proc.devRef .tc main_v10_0) = resHp (args m c) :=
  (HostEnds.W4_v10_0 m ρ c).trans ((Region0.arr8 (V1 m ρ) c).trans (by rw [inp_V1]))

/-- The mean absolute reconstruction error. -/
theorem res_re (c : Dev nD) : W4 m ρ c (Proc.devRef .tc main_v15) = scal (args m c).KRe := by
  rw [HostEnds.W4_v15]
  funext i
  show Ideal.div (shapeCast S_ ((dat0 (V1 m ρ) c).arrAt 14 cfg0.N) shapeCasts_S1x1_S_ i) (Ideal.ofBits .f32 0x4B800000#32)
    = Ideal.div (args m c).SRe ((16777216 : ℝ) : EReal)
  -- the scalar shape's one index is position 0, and so is (0, 0) of a [1, 1] array
  have hi : shapeCast S_ ((dat0 (V1 m ρ) c).arrAt 14 cfg0.N) shapeCasts_S1x1_S_ i
      = (dat0 (V1 m ρ) c).arrAt 14 cfg0.N (ix2 (0 : Fin 1) (0 : Fin 1)) :=
    shapeCast_apply _ _ i (ix2 (0 : Fin 1) (0 : Fin 1)) (by
      have h0 : (S_.rowMajor i).val < 1 := (S_.rowMajor i).isLt
      rw [Shape.rowMajor_val_two]
      show 0 * 1 + 0 = (S_.rowMajor i).val
      omega)
  rw [hi, Region0Acc.arr14, inp_V1, ofBits_two24]

/-- The weight gradient. -/
theorem res_w (c : Dev nD) : W4 m ρ c (Proc.devRef .tc main_v11) = matW (args m c).KW := by
  rw [HostEnds.W4_v11]
  funext i
  obtain ⟨j, h, rfl⟩ : ∃ (j : Fin 2048) (h : Fin 1024), i = ix2 j h := ⟨i 0, i 1, eq_ix2 i⟩
  rw [Region1.arr4 (V2 m ρ) c j h]
  show _ = (args m c).KW j h
  unfold Inp.KW
  -- the second kernel reads the batch as launched and three results of the first
  have e0 : (fun b j => V2 m ρ c main_arg0 (ix2 b j)) = (args m c).v := by
    funext b j; rw [HostEnds.V2_arg0]; rfl
  have e2 : (fun b j => V2 m ρ c main_v10_2 (ix2 b j)) = (args m c).Vk := by
    funext b j; rw [HostEnds.V2_v10_2, Region0.arr10, inp_V1]; rfl
  have e1 : (fun b h => V2 m ρ c main_v10_1 (ix2 b h)) = (args m c).Hd := by
    funext b h; rw [HostEnds.V2_v10_1, Region0.arr9, inp_V1]; rfl
  have e3 : (fun b h => V2 m ρ c main_v10_3 (ix2 b h)) = (args m c).Hf := by
    funext b h; rw [HostEnds.V2_v10_3, Region0.arr11, inp_V1]; rfl
  rw [e0, e2, e1, e3]

/-- The visible-bias gradient. -/
theorem res_vb (c : Dev nD) : W4 m ρ c (Proc.devRef .tc main_v12) = vecVb (args m c).KVb := by
  rw [HostEnds.W4_v12]
  funext i
  obtain ⟨j, rfl⟩ : ∃ j : Fin 2048, i = ix1 j := ⟨i 0, eq_ix1 i⟩
  refine (shapeCast_1a_a_apply _ _ j).trans ?_
  rw [Region0Acc.arr12, inp_V1]
  rfl

/-- The hidden-bias gradient. -/
theorem res_hb (c : Dev nD) : W4 m ρ c (Proc.devRef .tc main_v13) = vecHb (args m c).KHb := by
  rw [HostEnds.W4_v13]
  funext i
  obtain ⟨h, rfl⟩ : ∃ h : Fin 1024, i = ix1 h := ⟨i 0, eq_ix1 i⟩
  refine (shapeCast_1a_a_apply _ _ h).trans ?_
  rw [Region0Acc.arr13, inp_V1]
  rfl

/-- The run, read: every weakly fair execution terminates, nothing faulting, with the five results at the
    specification's tiled arrangement of the arguments, and the arguments as launched. -/
theorem run : θ_run defs (onTc (τ := τ) (main (F := Ideal))) ⟨m, fun _ => 0, ρ⟩ (fun r => ∀ c : Dev nD,
      r.2.mem ((c.tc : Thread nD τ).loc main_v10_0) = resHp (args m c)
      ∧ r.2.mem ((c.tc : Thread nD τ).loc main_v15) = scal (args m c).KRe
      ∧ r.2.mem ((c.tc : Thread nD τ).loc main_v11) = matW (args m c).KW
      ∧ r.2.mem ((c.tc : Thread nD τ).loc main_v12) = vecVb (args m c).KVb
      ∧ r.2.mem ((c.tc : Thread nD τ).loc main_v13) = vecHb (args m c).KHb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1.trans (res_hp m ρ c), (h c).2.1.trans (res_re m ρ c), (h c).2.2.1.trans (res_w m ρ c),
      (h c).2.2.2.1.trans (res_vb m ρ c), (h c).2.2.2.2.1.trans (res_hb m ρ c), (h c).2.2.2.2.2⟩)
    (Cert.KernelIdeal.RunW.run_W m ρ)

end Cert.KernelIdeal.KernelValue

end
-- ==== Proof.lean ====
/- One contrastive-divergence step of a restricted Boltzmann machine, computed by two tiled kernels, against the
   plain batch computation: hidden probabilities, mean absolute reconstruction error, and the three gradients.

   Over the extended reals both programs apply the same row functions to every row of the batch (a narrower float
   format is the identity; the logistic function spelt 1 / (1 + e^(−x)) is the logistic function; a product is a sum
   over the contracted coordinate, tiled or not). They differ in how the four accumulated results are arranged: the
   kernels sum per-row differences tile after tile and divide the summed error once by 2²⁴, the plain program takes
   differences of whole-batch sums and a mean of row means. For a finite batch these agree (probabilities and 0/1
   samples are real numbers always), and the precondition gives a finite batch.

   The three runs: the two kernel programs' frames are the generated ones; the kernel program's values are read off
   the same launch with the result arrays named; the plain program's run is the generated one, read one operation
   at a time. The two format round trips the idealization removed are the identity over the extended reals. -/
import proofs.«102447_j17806934409607_1_alg».proof.Defs
import proofs.«102447_j17806934409607_1_alg».proof.Proof.Gen.Kernel
import proofs.«102447_j17806934409607_1_alg».proof.Proof.Gen.Kernel.Skeleton
import proofs.«102447_j17806934409607_1_alg».proof.Proof.Gen.Kernel.Launch
import proofs.«102447_j17806934409607_1_alg».proof.Proof.Gen.Kernel.Points
import proofs.«102447_j17806934409607_1_alg».proof.Proof.Gen.Kernel.Frame
import proofs.«102447_j17806934409607_1_alg».proof.Proof.Gen.KernelIdeal
import proofs.«102447_j17806934409607_1_alg».proof.Proof.Gen.KernelIdeal.Skeleton
import proofs.«102447_j17806934409607_1_alg».proof.Proof.Gen.KernelIdeal.Launch
import proofs.«102447_j17806934409607_1_alg».proof.Proof.Gen.KernelIdeal.Points
import proofs.«102447_j17806934409607_1_alg».proof.Proof.Gen.KernelIdeal.Frame
import proofs.«102447_j17806934409607_1_alg».proof.Proof.Gen.ReferenceIdeal
import proofs.«102447_j17806934409607_1_alg».proof.Proof.Gen.ReferenceIdeal.Run
import proofs.«102447_j17806934409607_1_alg».proof.Proof.Gen.ReferenceIdeal.Read
import proofs.«102447_j17806934409607_1_alg».proof.Proof.Gen.Pre_finite_inputs
import proofs.«102447_j17806934409607_1_alg».proof.Proof.Spec
import proofs.«102447_j17806934409607_1_alg».proof.Proof.Algebra
import proofs.«102447_j17806934409607_1_alg».proof.Proof.Finite
import proofs.«102447_j17806934409607_1_alg».proof.Proof.RefSpec
import proofs.«102447_j17806934409607_1_alg».proof.Proof.KernelValue
import Idealize.ShloMosaic.Adequacy
import Idealize.ShloMosaic.Init

noncomputable section

namespace Cert.Proof

open Idealize.ShloMosaic Idealize.SL.Sem Cert.Rbm

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The plain program's frame: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2.2.2)
    (Cert.ReferenceIdeal.Value.run (F := Ideal) m ρ)

/-- The two bf16 round trips the idealization removed (the visible sample and the second hidden sample, widened
    again for the bias gradients) are the identity over the extended reals. -/
theorem preserves : Cert.preserves_Kernel_KernelIdeal :=
  ⟨IdealRules.truncf_extf.statement _ .f32 .bf16, IdealRules.truncf_extf.statement _ .f32 .bf16⟩

/-- Both programs end at the specification's five results of arguments that agree: the hidden probabilities are
    one term; each accumulated result is the tiled arrangement on one side and the plain one on the other, equal
    for the finite batch the precondition gives. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => resHp (Cert.KernelIdeal.KernelValue.args m c),
    fun c => scal (Cert.KernelIdeal.KernelValue.args m c).KRe,
    fun c => matW (Cert.KernelIdeal.KernelValue.args m c).KW,
    fun c => vecVb (Cert.KernelIdeal.KernelValue.args m c).KVb,
    fun c => vecHb (Cert.KernelIdeal.KernelValue.args m c).KHb,
    Cert.KernelIdeal.KernelValue.run m ρ, ?_⟩
  refine (θ_run Cert.ReferenceIdeal.defs _ _).mono (fun _ h c => ?_) (Cert.ReferenceIdeal.Value.run (F := Ideal) m' ρ')
  have hv : (Cert.KernelIdeal.KernelValue.args m c).FiniteV :=
    Cert.Pre_finite_inputs.Finite.finiteV _ _ _ _ _ _ (hpre c)
  obtain ⟨a0, a1, a2, a3, a4, a5⟩ := hagree c
  refine ⟨(h c).1.trans ?_, (h c).2.1.trans ?_, (h c).2.2.1.trans ?_, (h c).2.2.2.1.trans ?_,
    (h c).2.2.2.2.1.trans ?_, (h c).2.2.2.2.2⟩
  · rw [Cert.ReferenceIdeal.Read.val_main_v9_eq, a0, a1, a3]
    exact Cert.ReferenceIdeal.RefValue.v9_eq _ _ _ _ _ _
  · rw [Cert.ReferenceIdeal.Read.val_main_v27_eq, a0, a1, a2, a3]
    exact (Cert.ReferenceIdeal.RefValue.v27_eq _ _ _ _ _ _).trans
      (congrArg scal (Inp.KRe_eq_RRe _ hv).symm)
  · rw [Cert.ReferenceIdeal.Read.val_main_v68_eq, a0, a1, a2, a3, a4, a5]
    exact (Cert.ReferenceIdeal.RefValue.v68_eq _ _ _ _ _ _).trans
      (congrArg matW (funext fun j => funext fun k => (Inp.KW_eq_RW _ hv j k).symm))
  · rw [Cert.ReferenceIdeal.Read.val_main_v66_eq, a0, a1, a2, a3, a4, a5]
    exact (Cert.ReferenceIdeal.RefValue.v66_eq _ _ _ _ _ _).trans
      (congrArg vecVb (funext fun j => (Inp.KVb_eq_RVb _ hv j).symm))
  · rw [Cert.ReferenceIdeal.Read.val_main_v67_eq, a0, a1, a2, a3, a4, a5]
    exact (Cert.ReferenceIdeal.RefValue.v67_eq _ _ _ _ _ _).trans
      (congrArg vecHb (funext fun k => (Inp.KHb_eq_RHb _ k).symm))

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    preserves,
    @algebraic Cert.KernelIdeal.Gen.facts Cert.ReferenceIdeal.Gen.facts Cert.Pre_finite_inputs.Gen.facts⟩

end Cert.Proof

end
